-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  main_v3
-- ==== Kernel.lean ====
abbrev S16x512x64x64 : Shape := ⟨4, ![16, 512, 64, 64]⟩
abbrev S16x512x4096 : Shape := ⟨3, ![16, 512, 4096]⟩
abbrev S1x512x4096 : Shape := ⟨3, ![1, 512, 4096]⟩
abbrev S1x256x4096 : Shape := ⟨3, ![1, 256, 4096]⟩
abbrev S256x4096 : Shape := ⟨2, ![256, 4096]⟩
abbrev S1x16x4096 : Shape := ⟨3, ![1, 16, 4096]⟩
abbrev S16x4096 : Shape := ⟨2, ![16, 4096]⟩
abbrev S16x64x64 : Shape := ⟨3, ![16, 64, 64]⟩
abbrev S16x16x16 : Shape := ⟨3, ![16, 16, 16]⟩
abbrev S16x16x64 : Shape := ⟨3, ![16, 16, 64]⟩

abbrev nBuf : Space → Nat
  | .hbm => 4
  | .vmem => 4
  | .smem => 0
  | _ => 0

abbrev bufTy : (tb : Table) → Fin (tcTables nBuf tb) → BufTy
  | .hbm, ⟨0, _⟩ => ⟨S16x512x64x64, .f32⟩
  | .hbm, ⟨1, _⟩ => ⟨S16x512x4096, .f32⟩
  | .hbm, ⟨2, _⟩ => ⟨S16x512x4096, .f32⟩
  | .hbm, ⟨3, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x512x64x64_S16x512x4096 : S16x512x64x64.ShapeCasts S16x512x4096
  inb_S1x512x4096_S1x256x4096_0_0_0 : ∀ a, (![0, 0, 0] : Fin 3 → Nat) a + S1x256x4096.size a ≤ S1x512x4096.size a
  h_S1x256x4096 : 0 < S1x256x4096.numel
  shapeCasts_S1x256x4096_S256x4096 : S1x256x4096.ShapeCasts S256x4096
  shapeCasts_S256x4096_S1x256x4096 : S256x4096.ShapeCasts S1x256x4096
  inb_S1x512x4096_S1x16x4096_0_256_0 : ∀ a, (![0, 256, 0] : Fin 3 → Nat) a + S1x16x4096.size a ≤ S1x512x4096.size a
  h_S1x16x4096 : 0 < S1x16x4096.numel
  shapeCasts_S1x16x4096_S16x4096 : S1x16x4096.ShapeCasts S16x4096
  shapeCasts_S16x4096_S16x64x64 : S16x4096.ShapeCasts S16x64x64
  slices_S16x64x64_o0_0_0_S16x16x16 : S16x64x64.Slices ![0, 0, 0] S16x16x16
  slices_S16x64x64_o0_0_16_S16x16x16 : S16x64x64.Slices ![0, 0, 16] S16x16x16
  slices_S16x64x64_o0_0_32_S16x16x16 : S16x64x64.Slices ![0, 0, 32] S16x16x16
  slices_S16x64x64_o0_0_48_S16x16x16 : S16x64x64.Slices ![0, 0, 48] S16x16x16
  slices_S16x64x64_o0_16_0_S16x16x16 : S16x64x64.Slices ![0, 16, 0] S16x16x16
  slices_S16x64x64_o0_16_16_S16x16x16 : S16x64x64.Slices ![0, 16, 16] S16x16x16
  slices_S16x64x64_o0_16_32_S16x16x16 : S16x64x64.Slices ![0, 16, 32] S16x16x16
  slices_S16x64x64_o0_16_48_S16x16x16 : S16x64x64.Slices ![0, 16, 48] S16x16x16
  slices_S16x64x64_o0_32_0_S16x16x16 : S16x64x64.Slices ![0, 32, 0] S16x16x16
  slices_S16x64x64_o0_32_16_S16x16x16 : S16x64x64.Slices ![0, 32, 16] S16x16x16
  slices_S16x64x64_o0_32_32_S16x16x16 : S16x64x64.Slices ![0, 32, 32] S16x16x16
  slices_S16x64x64_o0_32_48_S16x16x16 : S16x64x64.Slices ![0, 32, 48] S16x16x16
  slices_S16x64x64_o0_48_0_S16x16x16 : S16x64x64.Slices ![0, 48, 0] S16x16x16
  slices_S16x64x64_o0_48_16_S16x16x16 : S16x64x64.Slices ![0, 48, 16] S16x16x16
  slices_S16x64x64_o0_48_32_S16x16x16 : S16x64x64.Slices ![0, 48, 32] S16x16x16
  slices_S16x64x64_o0_48_48_S16x16x16 : S16x64x64.Slices ![0, 48, 48] S16x16x16
  concatenates_S16x16x16_S16x16x16_S16x16x16_S16x16x16_S16x16x64_d2 : Shape.Concatenates [S16x16x16, S16x16x16, S16x16x16, S16x16x16] S16x16x64 2
  concatenates_S16x16x64_S16x16x64_S16x16x64_S16x16x64_S16x64x64_d1 : Shape.Concatenates [S16x16x64, S16x16x64, S16x16x64, S16x16x64] S16x64x64 1
  shapeCasts_S16x64x64_S16x4096 : S16x64x64.ShapeCasts S16x4096
  shapeCasts_S16x4096_S1x16x4096 : S16x4096.ShapeCasts S1x16x4096
  inb_S1x512x4096_S1x16x4096_0_272_0 : ∀ a, (![0, 272, 0] : Fin 3 → Nat) a + S1x16x4096.size a ≤ S1x512x4096.size a
  inb_S1x512x4096_S1x16x4096_0_288_0 : ∀ a, (![0, 288, 0] : Fin 3 → Nat) a + S1x16x4096.size a ≤ S1x512x4096.size a
  inb_S1x512x4096_S1x16x4096_0_304_0 : ∀ a, (![0, 304, 0] : Fin 3 → Nat) a + S1x16x4096.size a ≤ S1x512x4096.size a
  inb_S1x512x4096_S1x16x4096_0_320_0 : ∀ a, (![0, 320, 0] : Fin 3 → Nat) a + S1x16x4096.size a ≤ S1x512x4096.size a
  inb_S1x512x4096_S1x16x4096_0_336_0 : ∀ a, (![0, 336, 0] : Fin 3 → Nat) a + S1x16x4096.size a ≤ S1x512x4096.size a
  inb_S1x512x4096_S1x16x4096_0_352_0 : ∀ a, (![0, 352, 0] : Fin 3 → Nat) a + S1x16x4096.size a ≤ S1x512x4096.size a
  inb_S1x512x4096_S1x16x4096_0_368_0 : ∀ a, (![0, 368, 0] : Fin 3 → Nat) a + S1x16x4096.size a ≤ S1x512x4096.size a
  inb_S1x512x4096_S1x16x4096_0_384_0 : ∀ a, (![0, 384, 0] : Fin 3 → Nat) a + S1x16x4096.size a ≤ S1x512x4096.size a
  inb_S1x512x4096_S1x16x4096_0_400_0 : ∀ a, (![0, 400, 0] : Fin 3 → Nat) a + S1x16x4096.size a ≤ S1x512x4096.size a
  inb_S1x512x4096_S1x16x4096_0_416_0 : ∀ a, (![0, 416, 0] : Fin 3 → Nat) a + S1x16x4096.size a ≤ S1x512x4096.size a
  inb_S1x512x4096_S1x16x4096_0_432_0 : ∀ a, (![0, 432, 0] : Fin 3 → Nat) a + S1x16x4096.size a ≤ S1x512x4096.size a
  inb_S1x512x4096_S1x16x4096_0_448_0 : ∀ a, (![0, 448, 0] : Fin 3 → Nat) a + S1x16x4096.size a ≤ S1x512x4096.size a
  inb_S1x512x4096_S1x16x4096_0_464_0 : ∀ a, (![0, 464, 0] : Fin 3 → Nat) a + S1x16x4096.size a ≤ S1x512x4096.size a
  inb_S1x512x4096_S1x16x4096_0_480_0 : ∀ a, (![0, 480, 0] : Fin 3 → Nat) a + S1x16x4096.size a ≤ S1x512x4096.size a
  inb_S1x512x4096_S1x16x4096_0_496_0 : ∀ a, (![0, 496, 0] : Fin 3 → Nat) a + S1x16x4096.size a ≤ S1x512x4096.size a
  shapeCasts_S16x512x4096_S16x512x64x64 : S16x512x4096.ShapeCasts S16x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x512x4096.size a
  hwx0_1 : ∀ i : grid0.Coords, EltTy.bits .f32 = 32 ∨ (Rect.block (s := S16x512x4096) S1x512x4096.size (cc0_transform_1 i) (hinb0_1 i)).WholeWords (EltTy.packing .f32)

variable [Facts₀]

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x256x64x64 : Shape := ⟨4, ![16, 256, 64, 64]⟩
abbrev S16x16x16x4x16x4x16 : Shape := ⟨7, ![16, 16, 16, 4, 16, 4, 16]⟩
abbrev S16x16x16x16x16x4x4 : Shape := ⟨7, ![16, 16, 16, 16, 16, 4, 4]⟩
abbrev S16x16x16x16x16x16 : Shape := ⟨6, ![16, 16, 16, 16, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x16x1x1x1x16 : Shape := ⟨6, ![1, 16, 1, 1, 1, 16]⟩
abbrev S16x16x1 : Shape := ⟨3, ![16, 16, 1]⟩
abbrev S1 : Shape := ⟨1, ![1]⟩
abbrev S1x1x1 : Shape := ⟨3, ![1, 1, 1]⟩
abbrev S16x256x16x16x4x4 : Shape := ⟨6, ![16, 256, 16, 16, 4, 4]⟩
abbrev S16x256x4x16x4x16 : Shape := ⟨6, ![16, 256, 4, 16, 4, 16]⟩

abbrev nBuf : Space → Nat
  | .hbm => 63
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x256x64x64, .f32⟩
  | .hbm, ⟨2, _⟩ => ⟨S16x256x64x64, .f32⟩
  | .hbm, ⟨3, _⟩ => ⟨S16x16x16x4x16x4x16, .f32⟩
  | .hbm, ⟨4, _⟩ => ⟨S16x16x16x16x16x4x4, .f32⟩
  | .hbm, ⟨5, _⟩ => ⟨S16x16x16x16x16x16, .f32⟩
  | .hbm, ⟨6, _⟩ => ⟨S16, .i32⟩
  | .hbm, ⟨7, _⟩ => ⟨S16x1, .i32⟩
  | .hbm, ⟨8, _⟩ => ⟨S16, .i32⟩
  | .hbm, ⟨9, _⟩ => ⟨S1x16, .i32⟩
  | .hbm, ⟨10, _⟩ => ⟨S16x16, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i1⟩
  | .hbm, ⟨24, _⟩ => ⟨S_, .i32⟩
  | .hbm, ⟨25, _⟩ => ⟨S16x16, .i32⟩
  | .hbm, ⟨26, _⟩ => ⟨S16x16, .i1⟩
  | .hbm, ⟨27, _⟩ => ⟨S_, .i32⟩
  | .hbm, ⟨28, _⟩ => ⟨S_, .i1⟩
  | .hbm, ⟨29, _⟩ => ⟨S16x16, .i1⟩
  | .hbm, ⟨30, _⟩ => ⟨S16x16, .i1⟩
  | .hbm, ⟨31, _⟩ => ⟨S16x16, .i1⟩
  | .hbm, ⟨32, _⟩ => ⟨S16x16, .i32⟩
  | .hbm, ⟨33, _⟩ => ⟨S16x16, .i32⟩
  | .hbm, ⟨34, _⟩ => ⟨S16x16, .i32⟩
  | .hbm, ⟨35, _⟩ => ⟨S1x16x1x1x1x16, .i32⟩
  | .hbm, ⟨36, _⟩ => ⟨S_, .i32⟩
  | .hbm, ⟨37, _⟩ => ⟨S1x16x1x1x1x16, .i32⟩
  | .hbm, ⟨38, _⟩ => ⟨S1x16x1x1x1x16, .i1⟩
  | .hbm, ⟨39, _⟩ => ⟨S_, .i32⟩
  | .hbm, ⟨40, _⟩ => ⟨S1x16x1x1x1x16, .i32⟩
  | .hbm, ⟨41, _⟩ => ⟨S1x16x1x1x1x16, .i32⟩
  | .hbm, ⟨42, _⟩ => ⟨S1x16x1x1x1x16, .i32⟩
  | .hbm, ⟨43, _⟩ => ⟨S16x16x1, .i32⟩
  | .hbm, ⟨44, _⟩ => ⟨S1, .i32⟩
  | .hbm, ⟨45, _⟩ => ⟨S_, .i32⟩
  | .hbm, ⟨46, _⟩ => ⟨S16x16x1, .i32⟩
  | .hbm, ⟨47, _⟩ => ⟨S16x16x1, .i1⟩
  | .hbm, ⟨48, _⟩ => ⟨S1x1x1, .i32⟩
  | .hbm, ⟨49, _⟩ => ⟨S16x16x1, .i32⟩
  | .hbm, ⟨50, _⟩ => ⟨S16x16x1, .i1⟩
  | .hbm, ⟨51, _⟩ => ⟨S16x16x1, .i1⟩
  | .hbm, ⟨52, _⟩ => ⟨S_, .i1⟩
  | .hbm, ⟨53, _⟩ => ⟨S16x16, .i1⟩
  | .hbm, ⟨54, _⟩ => ⟨S16x16x16x16x16x16, .f32⟩
  | .hbm, ⟨55, _⟩ => ⟨S16x16x16x16x16x16, .i1⟩
  | .hbm, ⟨56, _⟩ => ⟨S_, .f32⟩
  | .hbm, ⟨57, _⟩ => ⟨S16x16x16x16x16x16, .f32⟩
  | .hbm, ⟨58, _⟩ => ⟨S16x16x16x16x16x16, .f32⟩
  | .hbm, ⟨59, _⟩ => ⟨S16x256x16x16x4x4, .f32⟩
  | .hbm, ⟨60, _⟩ => ⟨S16x256x4x16x4x16, .f32⟩
  | .hbm, ⟨61, _⟩ => ⟨S16x256x64x64, .f32⟩
  | .hbm, ⟨62, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v12 : Ref sig .tc := ⟨.hbm, 34, rfl⟩
abbrev main_v13 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩

abbrev nD : Nat := 1
abbrev τ : Topo := Topo.v7x

variable {F : FTy → Type} [FloatOps F]

class Facts₀ : Prop where
  slices_S16x512x64x64_S16x256x64x64_0_0_0_0 : S16x512x64x64.Slices ![0, 0, 0, 0] S16x256x64x64
  slices_S16x512x64x64_S16x256x64x64_0_256_0_0 : S16x512x64x64.Slices ![0, 256, 0, 0] S16x256x64x64
  shapeCasts_S16x256x64x64_S16x16x16x4x16x4x16 : S16x256x64x64.ShapeCasts S16x16x16x4x16x4x16
  transposes_S16x16x16x4x16x4x16_S16x16x16x16x16x4x4_0_1_2_4_6_3_5 : S16x16x16x4x16x4x16.Transposes [0, 1, 2, 4, 6, 3, 5] S16x16x16x16x16x4x4
  shapeCasts_S16x16x16x16x16x4x4_S16x16x16x16x16x16 : S16x16x16x16x16x4x4.ShapeCasts S16x16x16x16x16x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  shapeCasts_S16x16_S1x16x1x1x1x16 : S16x16.ShapeCasts S1x16x1x1x1x16
  bcast_S_S1x16x1x1x1x16 : S_.BroadcastsInDim S1x16x1x1x1x16 (![] : Fin 0 → Fin S1x16x1x1x1x16.rank)
  shapeCasts_S1x16x1x1x1x16_S16x16x1 : S1x16x1x1x1x16.ShapeCasts S16x16x1
  bcast_S_S16x16x1 : S_.BroadcastsInDim S16x16x1 (![] : Fin 0 → Fin S16x16x1.rank)
  bcast_S1_S1x1x1_2 : S1.BroadcastsInDim S1x1x1 (![2] : Fin 1 → Fin S1x1x1.rank)
  bcast_S1x1x1_S16x16x1_0_1_2 : S1x1x1.BroadcastsInDim S16x16x1 (![0, 1, 2] : Fin 3 → Fin S16x16x1.rank)
  reducesTo_S16x16x1_S16x16_d2 : S16x16x1.ReducesTo [2] S16x16
  h_S_ : 0 < S_.numel
  bcast_S16x16_S16x16x16x16x16x16_1_5 : S16x16.BroadcastsInDim S16x16x16x16x16x16 (![1, 5] : Fin 2 → Fin S16x16x16x16x16x16.rank)
  bcast_S_S16x16x16x16x16x16 : S_.BroadcastsInDim S16x16x16x16x16x16 (![] : Fin 0 → Fin S16x16x16x16x16x16.rank)
  shapeCasts_S16x16x16x16x16x16_S16x256x16x16x4x4 : S16x16x16x16x16x16.ShapeCasts S16x256x16x16x4x4
  transposes_S16x256x16x16x4x4_S16x256x4x16x4x16_0_1_4_2_5_3 : S16x256x16x16x4x4.Transposes [0, 1, 4, 2, 5, 3] S16x256x4x16x4x16
  shapeCasts_S16x256x4x16x4x16_S16x256x64x64 : S16x256x4x16x4x16.ShapeCasts S16x256x64x64
  concatenates_S16x256x64x64_S16x256x64x64_S16x512x64x64_d1 : Shape.Concatenates [S16x256x64x64, S16x256x64x64] S16x512x64x64 1
  gather_S16x16x16x16x16x16_S16x16x1_S16x16x16x16x16x16_0234_5_1_0_5_2_1611616161_wf : GatherDims.WF S16x16x16x16x16x16 S16x16x1 S16x16x16x16x16x16 [0, 2, 3, 4] [5] [1] [5] [0] 2 ![16, 1, 16, 16, 16, 1]

variable [Facts₀]

def gather_S16x16x16x16x16x16_S16x16x1_S16x16x16x16x16x16_0234_5_1_0_5_2_1611616161 : GatherDims S16x16x16x16x16x16 S16x16x1 S16x16x16x16x16x16 where
  offsetDims := [0, 2, 3, 4]
  collapsedSliceDims := [5]
  operandBatchingDims := [1]
  startIndicesBatchingDims := [0]
  startIndexMap := [5]
  indexVectorDim := 2
  sliceSizes := ![16, 1, 16, 16, 16, 1]
  wf := gather_S16x16x16x16x16x16_S16x16x1_S16x16x16x16x16x16_0234_5_1_0_5_2_1611616161_wf

class Facts : Prop extends Facts₀ where

variable [Facts]
-- ==== Proof.Spec.lean ====
/-
  The permutation both programs compute, stated once over plain index arithmetic.

  The array has shape [16, 512, 64, 64] (batch, channel, row, column). Channels 0..255 are copied. Channels
  256..511 fall into sixteen groups of sixteen channels; in group `g` each 64×64 image is cut into a 4×4 grid of
  16×16 tiles, numbered row-major 0..15, and output tile `k` is input tile `(g + k) mod 16`, the position inside the
  tile kept. `shuffled` says this on the four-axis array; `shuffledFlat` says the same on an array whose image
  is one flat axis of 4096 = 64 · 64 positions (row-major), for any leading extent.
-/
import Idealize.ShloMosaic.Lib.ValueIdx

namespace Cert.Shuffle

open Idealize.ShloMosaic Idealize.ShloMosaic.ValueIdx

/-- The input tile that lands on the tile holding (row `h`, column `w`) of channel `c ≥ 256`. -/
def srcTile (c h w : Nat) : Nat := ((c - 256) / 16 + (h / 16) * 4 + w / 16) % 16

/-- The input row read for output (row `h`, column `w`) of channel `c`: the source tile's row of tiles, same
    row inside the tile. -/
def srcRow (c h w : Nat) : Nat := (srcTile c h w / 4) * 16 + h % 16

/-- The input column read: the source tile's column of tiles, same column inside the tile. -/
def srcCol (c h w : Nat) : Nat := (srcTile c h w % 4) * 16 + w % 16

theorem srcRow_lt (c h w : Nat) : srcRow c h w < 64 := by unfold srcRow srcTile; omega
theorem srcCol_lt (c h w : Nat) : srcCol c h w < 64 := by unfold srcCol srcTile; omega

/-- The same on a flat image: position `p = 64 h + w` reads position `64 · srcRow + srcCol`. -/
def srcPos (c p : Nat) : Nat := srcRow c (p / 64) (p % 64) * 64 + srcCol c (p / 64) (p % 64)

theorem srcPos_lt (c p : Nat) : srcPos c p < 4096 := by
  have h1 := srcRow_lt c (p / 64) (p % 64); have h2 := srcCol_lt c (p / 64) (p % 64)
  unfold srcPos; omega

/-- THE RESULT on the four-axis array: the low channels copied, the high channels' tiles cyclically shifted. -/
def shuffled {α : Type} (x : (⟨4, ![16, 512, 64, 64]⟩ : Shape).Idx → α) : (⟨4, ![16, 512, 64, 64]⟩ : Shape).Idx → α :=
  fun i =>
    if (i 1).val < 256 then x i
    else x (ix4 (n0 := 16) (n1 := 512) (n2 := 64) (n3 := 64) (i 0) (i 1)
      ⟨srcRow (i 1).val (i 2).val (i 3).val, srcRow_lt _ _ _⟩ ⟨srcCol (i 1).val (i 2).val (i 3).val, srcCol_lt _ _ _⟩)

/-- THE RESULT on an array [n, 512, 4096] whose images are flat. -/
def shuffledFlat {α : Type} {n : Nat} (x : (⟨3, ![n, 512, 4096]⟩ : Shape).Idx → α) :
    (⟨3, ![n, 512, 4096]⟩ : Shape).Idx → α :=
  fun i =>
    if (i 1).val < 256 then x i
    else x (ix3 (n0 := n) (n1 := 512) (n2 := 4096) (i 0) (i 1) ⟨srcPos (i 1).val (i 2).val, srcPos_lt _ _⟩)

end Cert.Shuffle
-- ==== Proof.KernelBlock.lean ====
/-
  What the kernel body leaves in the output block: the tile shuffle of the input block.

  The body writes the block [1,512,4096] (channel, flat 64×64 image) in seventeen pieces. The first is rows 0..255,
  copied. The others are the sixteen groups of sixteen channels from row 256 on: group `g`'s rows are viewed as
  [16,64,64], cut into a 4×4 grid of 16×16 tiles numbered row-major, output tile `k` is input tile `(g + k) % 16`,
  and the tiles are laid out again and flattened. Below: the tile cut and the tile layout read at an index
  (`tileOf_apply`, `assemble_apply`), one group's stored value read at an index for ANY group number
  (`groupPay_apply`), each of the sixteen stored values identified with its group's (`pay_g0` … `pay_g15`, by
  unfolding), a group's piece and the copied piece against the specification (`group_piece`, `keep_piece`: the
  index arithmetic, once, generic in the group), and the block from its pieces (`out_eq`).
-/
import proofs.«168481_j16930761081418_1_alg».proof.Proof.Gen.KernelIdeal.Frame
import proofs.«168481_j16930761081418_1_alg».proof.Proof.Spec
import Idealize.ShloMosaic.Lib.ValueIdx
import Idealize.ShloMosaic.Lib.ValueLayout
import Idealize.ShloMosaic.Lib.Writes
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Tactic

variable {F : FTy → Type} [FloatOps F]

/-! ## Sixteen tiles of a [16,64,64] array, cut out and put back in another order -/

section Tiles
variable {α : Type}

/-- The offsets of tile `m` (row-major in the 4×4 grid of 16×16 tiles) in a [16,64,64] array. -/
abbrev tileOff (m : Nat) : Fin 3 → Nat := ![0, 16 * (m / 4), 16 * (m % 4)]

theorem tileSlices (m : Nat) (hm : m < 16) : S16x64x64.Slices (tileOff m) S16x16x16 :=
  ⟨rfl, fun a => match a with
    | ⟨0, _⟩ => by show 0 + 16 ≤ 16; omega
    | ⟨1, _⟩ => by show 16 * (m / 4) + 16 ≤ 64; omega
    | ⟨2, _⟩ => by show 16 * (m % 4) + 16 ≤ 64; omega⟩

/-- Tile `m` of a [16,64,64] array. -/
def tileOf (X : S16x64x64.Idx → α) (m : Nat) (hm : m < 16) : S16x16x16.Idx → α :=
  extractStridedSlice S16x16x16 (tileOff m) X (tileSlices m hm)

/-- Tile `m` at (channel `c`, row `r`, column `s`) is the array at row `16 (m / 4) + r`, column `16 (m % 4) + s`. -/
theorem tileOf_apply (X : S16x64x64.Idx → α) (m : Nat) (hm : m < 16) (c r s : Fin 16) :
    tileOf X m hm (ix3 c r s)
      = X (ix3 c ⟨16 * (m / 4) + r.val, by omega⟩ ⟨16 * (m % 4) + s.val, by omega⟩) :=
  extractStridedSlice_apply (tileOff m) X (tileSlices m hm) _ _ fun a => match a with
    | ⟨0, _⟩ => by show c.val = 0 + c.val; omega
    | ⟨1, _⟩ => rfl
    | ⟨2, _⟩ => rfl

theorem cat2 : Shape.Concatenates [S16x16x16, S16x16x16, S16x16x16, S16x16x16] S16x16x64 2 := by decide
theorem cat1 : Shape.Concatenates [S16x16x64, S16x16x64, S16x16x64, S16x16x64] S16x64x64 1 := by decide

/-- Row `r` of tiles: tiles `4 r`, …, `4 r + 3` side by side. -/
def rowOf (t : Fin 16 → S16x16x16.Idx → α) (r : Fin 4) : S16x16x64.Idx → α :=
  concatenate S16x16x64 2 (List.ofFn fun q : Fin 4 => (⟨S16x16x16, t ⟨4 * r.val + q.val, by omega⟩⟩ : (s : Shape) × (s.Idx → α))) cat2

/-- The sixteen tiles `t` laid out row-major as one [16,64,64] array, flattened to [1,16,4096]. -/
def assemble (t : Fin 16 → S16x16x16.Idx → α) : S1x16x4096.Idx → α :=
  shapeCast S1x16x4096
    (shapeCast S16x4096
      (concatenate S16x64x64 1 (List.ofFn fun r : Fin 4 => (⟨S16x16x64, rowOf t r⟩ : (s : Shape) × (s.Idx → α))) cat1)
      (by decide)) (by decide)

/-- The assembled array at channel `cc`, flat position `p = 64 h + w`: tile `4 (h / 16) + w / 16` at (`h % 16`, `w % 16`). -/
theorem assemble_apply (t : Fin 16 → S16x16x16.Idx → α) (u : Fin 1) (cc : Fin 16) (p : Fin 4096) :
    assemble t (ix3 u cc p)
      = t ⟨4 * (p.val / 64 / 16) + p.val % 64 / 16, by omega⟩
          (ix3 cc ⟨p.val / 64 % 16, by omega⟩ ⟨p.val % 64 % 16, by omega⟩) := by
  unfold assemble
  refine (shapeCast_ab_1ab_apply _ _ u cc p).trans ?_
  refine (shapeCast_apply _ _ (ix2 cc p) (ix3 cc ⟨p.val / 64, by omega⟩ ⟨p.val % 64, by omega⟩) ?_).trans ?_
  · rw [Shape.rowMajor_val_three, Shape.rowMajor_val_two]
    show (cc.val * 64 + p.val / 64) * 64 + p.val % 64 = cc.val * 4096 + p.val
    omega
  refine (concatenate_ofFn_apply (t := S16x64x64) (s₁ := S16x16x64) 1 (fun r : Fin 4 => rowOf t r) _ rfl 16 rfl _
    ⟨p.val / 64 / 16, by omega⟩ rfl (ix3 cc ⟨p.val / 64 % 16, by omega⟩ ⟨p.val % 64, by omega⟩) rfl ?_).trans ?_
  · intro b hb
    match b with
    | ⟨0, _⟩ => rfl
    | ⟨1, _⟩ => exact absurd rfl hb
    | ⟨2, _⟩ => rfl
  unfold rowOf
  refine concatenate_ofFn_apply (t := S16x16x64) (s₁ := S16x16x16) 2
    (fun q : Fin 4 => t ⟨4 * (p.val / 64 / 16) + q.val, by omega⟩) _ rfl 16 rfl _
    ⟨p.val % 64 / 16, by omega⟩ rfl (ix3 cc ⟨p.val / 64 % 16, by omega⟩ ⟨p.val % 64 % 16, by omega⟩) rfl ?_
  intro b hb
  match b with
  | ⟨0, _⟩ => rfl
  | ⟨1, _⟩ => rfl
  | ⟨2, _⟩ => exact absurd rfl hb

end Tiles

/-! ## One group's payload -/

section Group
variable {α : Type}

/-- What the body stores for group `g` from the group's loaded block `v`: the block viewed [16,64,64], cut into its
    sixteen tiles, output tile `k` := input tile `(g + k) % 16`, flattened again. -/
def groupPay (g : Nat) (v : S1x16x4096.Idx → α) : S1x16x4096.Idx → α :=
  assemble fun k : Fin 16 =>
    tileOf (shapeCast S16x64x64 (shapeCast S16x4096 v (by decide)) (by decide)) ((g + k.val) % 16) (Nat.mod_lt _ (by decide))

/-- The source tile of flat position `p` in group `g`. -/
abbrev srcT (g p : Nat) : Nat := (g + (4 * (p / 64 / 16) + p % 64 / 16)) % 16

/-- The group's payload at channel `cc`, flat position `p`, is the loaded block at the same channel, at the position of
    the source tile with the same place inside the tile. -/
theorem groupPay_apply (g : Nat) (v : S1x16x4096.Idx → α) (u : Fin 1) (cc : Fin 16) (p : Fin 4096) :
    groupPay g v (ix3 u cc p)
      = v (ix3 (0 : Fin 1) cc ⟨(16 * (srcT g p.val / 4) + p.val / 64 % 16) * 64 + (16 * (srcT g p.val % 4) + p.val % 64 % 16),
          by unfold srcT; omega⟩) := by
  unfold groupPay
  refine (assemble_apply _ u cc p).trans ?_
  refine (tileOf_apply _ _ _ cc _ _).trans ?_
  refine (shapeCast_apply _ _ _ (ix2 cc ⟨(16 * (srcT g p.val / 4) + p.val / 64 % 16) * 64 + (16 * (srcT g p.val % 4) + p.val % 64 % 16),
          by unfold srcT; omega⟩) ?_).trans ?_
  · rw [Shape.rowMajor_val_three, Shape.rowMajor_val_two]
    show cc.val * 4096 + ((16 * (srcT g p.val / 4) + p.val / 64 % 16) * 64 + (16 * (srcT g p.val % 4) + p.val % 64 % 16))
      = (cc.val * 64 + (16 * (srcT g p.val / 4) + p.val / 64 % 16)) * 64 + (16 * (srcT g p.val % 4) + p.val % 64 % 16)
    omega
  exact shapeCast_1ab_ab_apply _ _ cc _

end Group

/-! ## Each store's payload is its group's -/

section Pays

/-- The store at channel 256: group 0. -/
theorem pay_g0 (v : Vec F S1x16x4096 .f32) :
    k0_pay3 v = groupPay 0 v := rfl
/-- The store at channel 272: group 1. -/
theorem pay_g1 (v : Vec F S1x16x4096 .f32) :
    k0_pay11 (k0_pay4 v) (k0_pay5 v) (k0_pay6 v) (k0_pay7 v) (k0_pay8 v) (k0_pay9 v) (k0_pay10 v) = groupPay 1 v := rfl
/-- The store at channel 288: group 2. -/
theorem pay_g2 (v : Vec F S1x16x4096 .f32) :
    k0_pay12 v = groupPay 2 v := rfl
/-- The store at channel 304: group 3. -/
theorem pay_g3 (v : Vec F S1x16x4096 .f32) :
    k0_pay13 v = groupPay 3 v := rfl
/-- The store at channel 320: group 4. -/
theorem pay_g4 (v : Vec F S1x16x4096 .f32) :
    k0_pay15 (k0_pay14 v) = groupPay 4 v := rfl
/-- The store at channel 336: group 5. -/
theorem pay_g5 (v : Vec F S1x16x4096 .f32) :
    k0_pay16 v = groupPay 5 v := rfl
/-- The store at channel 352: group 6. -/
theorem pay_g6 (v : Vec F S1x16x4096 .f32) :
    k0_pay29 (k0_pay17 v) (k0_pay18 v) (k0_pay19 v) (k0_pay20 v) (k0_pay21 v) (k0_pay22 v) (k0_pay23 v) (k0_pay24 v) (k0_pay25 v) (k0_pay26 v) (k0_pay27 v) (k0_pay28 v) = groupPay 6 v := rfl
/-- The store at channel 368: group 7. -/
theorem pay_g7 (v : Vec F S1x16x4096 .f32) :
    k0_pay30 v = groupPay 7 v := rfl
/-- The store at channel 384: group 8. -/
theorem pay_g8 (v : Vec F S1x16x4096 .f32) :
    k0_pay33 (k0_pay31 v) (k0_pay32 v) = groupPay 8 v := rfl
/-- The store at channel 400: group 9. -/
theorem pay_g9 (v : Vec F S1x16x4096 .f32) :
    k0_pay35 (k0_pay34 v) = groupPay 9 v := rfl
/-- The store at channel 416: group 10. -/
theorem pay_g10 (v : Vec F S1x16x4096 .f32) :
    k0_pay36 v = groupPay 10 v := rfl
/-- The store at channel 432: group 11. -/
theorem pay_g11 (v : Vec F S1x16x4096 .f32) :
    k0_pay54 (k0_pay38 v) (k0_pay39 v) (k0_pay40 v) (k0_pay41 v) (k0_pay42 v) (k0_pay43 v) (k0_pay44 v) (k0_pay45 v) (k0_pay46 v) (k0_pay47 v) (k0_pay48 v) (k0_pay49 v) (k0_pay50 v) (k0_pay51 v) (k0_pay52 v) (k0_pay53 v) = groupPay 11 v := rfl
/-- The store at channel 448: group 12. -/
theorem pay_g12 (v : Vec F S1x16x4096 .f32) :
    k0_pay55 v = groupPay 12 v := rfl
/-- The store at channel 464: group 13. -/
theorem pay_g13 (v : Vec F S1x16x4096 .f32) :
    k0_pay63 (k0_pay56 v) (k0_pay57 v) (k0_pay58 v) (k0_pay59 v) (k0_pay60 v) (k0_pay61 v) (k0_pay62 v) = groupPay 13 v := rfl
/-- The store at channel 480: group 14. -/
theorem pay_g14 (v : Vec F S1x16x4096 .f32) :
    k0_pay64 v = groupPay 14 v := rfl
/-- The store at channel 496: group 15. -/
theorem pay_g15 (v : Vec F S1x16x4096 .f32) :
    k0_pay1 v = groupPay 15 v := rfl

end Pays

/-! ## A piece against the specification -/

section Pieces

/-- Group `g`'s piece — its payload computed from the rows `off = 256 + 16 g`, … of the block, stored at those rows —
    agrees with the shuffle: the channel under index `x` is `off + x 1 ≥ 256`, its group is `g`, and the source
    position the payload reads is the specification's `srcPos`. -/
theorem group_piece (g off : Nat) (hoff : off = 256 + 16 * g) (x0 : Vec F S1x512x4096 .f32)
    (inb : ∀ a, (![0, off, 0] : Fin 3 → Nat) a + (![1, 16, 4096] : Fin 3 → Nat) a ≤ S1x512x4096.size a)
    (x : (⟨3, ![1, 16, 4096]⟩ : Shape).Idx) :
    groupPay g (View.ld x0 (Rect.unit (s := S1x512x4096) ![0, off, 0] ![1, 16, 4096] inb)) x
      = Cert.Shuffle.shuffledFlat (n := 1) x0 ((Rect.unit (s := S1x512x4096) ![0, off, 0] ![1, 16, 4096] inb).emb x) := by
  subst hoff
  have h0 : (x 0).val < 1 := (x 0).isLt
  have h1 : (x 1).val < 16 := (x 1).isLt
  have h2 : (x 2).val < 4096 := (x 2).isLt
  have hch : ((Rect.unit (s := S1x512x4096) ![0, 256 + 16 * g, 0] ![1, 16, 4096] inb).emb x 1).val = 256 + 16 * g + 1 * (x 1).val := rfl
  have hps : ((Rect.unit (s := S1x512x4096) ![0, 256 + 16 * g, 0] ![1, 16, 4096] inb).emb x 2).val = 0 + 1 * (x 2).val := rfl
  rw [eq_ix3 x]
  refine (groupPay_apply g _ (x 0) (x 1) (x 2)).trans ?_
  unfold Cert.Shuffle.shuffledFlat
  rw [if_neg (by rw [← eq_ix3 x, hch]; omega)]
  refine congrArg x0 (funext fun a => Fin.ext ?_)
  match a with
  | ⟨0, _⟩ => show 0 + 1 * 0 = 0 + 1 * (x 0).val; omega
  | ⟨1, _⟩ => rfl
  | ⟨2, _⟩ =>
    rw [← eq_ix3 x]
    show 0 + 1 * ((16 * (srcT g (x 2).val / 4) + (x 2).val / 64 % 16) * 64 + (16 * (srcT g (x 2).val % 4) + (x 2).val % 64 % 16))
      = Cert.Shuffle.srcPos ((Rect.unit (s := S1x512x4096) ![0, 256 + 16 * g, 0] ![1, 16, 4096] inb).emb x 1).val
          ((Rect.unit (s := S1x512x4096) ![0, 256 + 16 * g, 0] ![1, 16, 4096] inb).emb x 2).val
    rw [hch, hps]
    unfold Cert.Shuffle.srcPos Cert.Shuffle.srcRow Cert.Shuffle.srcCol Cert.Shuffle.srcTile srcT
    omega

/-- The first store's piece — rows 0..255 cast to [256,4096] and back, stored at rows 0..255 — agrees with the shuffle:
    the casts undo each other, and the channel under index `x` is `x 1 < 256`, which the shuffle copies. -/
theorem keep_piece (x0 : Vec F S1x512x4096 .f32)
    (inb : ∀ a, (![0, 0, 0] : Fin 3 → Nat) a + (![1, 256, 4096] : Fin 3 → Nat) a ≤ S1x512x4096.size a)
    (x : (⟨3, ![1, 256, 4096]⟩ : Shape).Idx) :
    k0_pay2 (View.ld x0 (Rect.unit (s := S1x512x4096) ![0, 0, 0] ![1, 256, 4096] inb)) x
      = Cert.Shuffle.shuffledFlat (n := 1) x0 ((Rect.unit (s := S1x512x4096) ![0, 0, 0] ![1, 256, 4096] inb).emb x) := by
  have h1 : (x 1).val < 256 := (x 1).isLt
  have hch : ((Rect.unit (s := S1x512x4096) ![0, 0, 0] ![1, 256, 4096] inb).emb x 1).val = 0 + 1 * (x 1).val := rfl
  unfold k0_pay2
  refine (congrFun (shapeCast_shapeCast _ _ _) x).trans ?_
  unfold Cert.Shuffle.shuffledFlat
  rw [if_pos (by rw [hch]; omega)]
  rfl

end Pieces

/-! ## The output block -/

/-- The output block is the shuffle of the input block: every index lies in some piece the body wrote, and every
    piece agrees with the shuffle at the indices it covers — the sixteen groups' pieces (last written first) by
    `group_piece` at their group numbers, the copied rows by `keep_piece`. -/
theorem out_eq (c : Dev nD) (i : grid0.Coords) (arg1 : Memref sig .tc .vmem S1x512x4096 .f32) (harg1 : arg1.IsWhole)
    (arg2 : Memref sig .tc .vmem S1x512x4096 .f32) (harg2 : arg2.IsWhole) (x0 : Vec F S1x512x4096 .f32) :
    out0_A_1 c i arg1 harg1 arg2 harg2 x0 = Cert.Shuffle.shuffledFlat (n := 1) x0 := by
  funext y
  unfold out0_A_1
  refine View.read_writes_apply_of_pieces _ _ (Cert.Shuffle.shuffledFlat (n := 1) x0) _ ?_ y
    (cover0_A_1 c i arg1 harg1 arg2 harg2 x0 y)
  unfold kernelRun0_A
  dsimp only
  sl_unfold_words
  simp only [View.readAt_eq_ld, harg1.read_unread]
  refine List.forall_mem_cons.2 ⟨fun x => (congrFun (pay_g15 _) x).trans (group_piece 15 496 rfl x0 _ x), ?_⟩
  refine List.forall_mem_cons.2 ⟨fun x => (congrFun (pay_g14 _) x).trans (group_piece 14 480 rfl x0 _ x), ?_⟩
  refine List.forall_mem_cons.2 ⟨fun x => (congrFun (pay_g13 _) x).trans (group_piece 13 464 rfl x0 _ x), ?_⟩
  refine List.forall_mem_cons.2 ⟨fun x => (congrFun (pay_g12 _) x).trans (group_piece 12 448 rfl x0 _ x), ?_⟩
  refine List.forall_mem_cons.2 ⟨fun x => (congrFun (pay_g11 _) x).trans (group_piece 11 432 rfl x0 _ x), ?_⟩
  refine List.forall_mem_cons.2 ⟨fun x => (congrFun (pay_g10 _) x).trans (group_piece 10 416 rfl x0 _ x), ?_⟩
  refine List.forall_mem_cons.2 ⟨fun x => (congrFun (pay_g9 _) x).trans (group_piece 9 400 rfl x0 _ x), ?_⟩
  refine List.forall_mem_cons.2 ⟨fun x => (congrFun (pay_g8 _) x).trans (group_piece 8 384 rfl x0 _ x), ?_⟩
  refine List.forall_mem_cons.2 ⟨fun x => (congrFun (pay_g7 _) x).trans (group_piece 7 368 rfl x0 _ x), ?_⟩
  refine List.forall_mem_cons.2 ⟨fun x => (congrFun (pay_g6 _) x).trans (group_piece 6 352 rfl x0 _ x), ?_⟩
  refine List.forall_mem_cons.2 ⟨fun x => (congrFun (pay_g5 _) x).trans (group_piece 5 336 rfl x0 _ x), ?_⟩
  refine List.forall_mem_cons.2 ⟨fun x => (congrFun (pay_g4 _) x).trans (group_piece 4 320 rfl x0 _ x), ?_⟩
  refine List.forall_mem_cons.2 ⟨fun x => (congrFun (pay_g3 _) x).trans (group_piece 3 304 rfl x0 _ x), ?_⟩
  refine List.forall_mem_cons.2 ⟨fun x => (congrFun (pay_g2 _) x).trans (group_piece 2 288 rfl x0 _ x), ?_⟩
  refine List.forall_mem_cons.2 ⟨fun x => (congrFun (pay_g1 _) x).trans (group_piece 1 272 rfl x0 _ x), ?_⟩
  refine List.forall_mem_cons.2 ⟨fun x => (congrFun (pay_g0 _) x).trans (group_piece 0 256 rfl x0 _ x), ?_⟩
  refine List.forall_mem_cons.2 ⟨fun x => keep_piece x0 _ x, ?_⟩
  exact fun _ h => absurd h List.not_mem_nil

end Cert.KernelIdeal.KValue

end
-- ==== Proof.KernelArray.lean ====
/-
  From the block to the array: what the kernel's run leaves in its result buffer.

  Point `t` of the grid stages image `t` of the [16, 512, 4096] array (block index (t, 0, 0) of blocks [1, 512, 4096]),
  the body leaves the tile shuffle of that block (KernelBlock.lean), and the write-backs tile the output array, which so
  ends at the shuffle of the input array; the host reshapes before and after the region turn this into the shuffle
  of the four-axis argument.
-/
import proofs.«168481_j16930761081418_1_alg».proof.Proof.KernelBlock
import Idealize.ShloMosaic.Lib.Pipeline.Value
import Idealize.ShloMosaic.Lib.StableHlo.Run
import Idealize.ShloMosaic.Lib.Tactic

set_option maxRecDepth 16384

noncomputable section

namespace Cert.Shuffle

open Idealize.ShloMosaic Idealize.ShloMosaic.ValueIdx

/-- A block that is image `b` of an array shuffles to image `b` of the array's shuffle: the shuffle never mixes images. -/
theorem shuffledFlat_member {α : Type} (X : (⟨3, ![1, 512, 4096]⟩ : Shape).Idx → α) (A : (⟨3, ![16, 512, 4096]⟩ : Shape).Idx → α)
    (b : Fin 16) (h : ∀ y : (⟨3, ![1, 512, 4096]⟩ : Shape).Idx, X y = A (ix3 (n0 := 16) (n1 := 512) (n2 := 4096) b (y 1) (y 2)))
    (y : (⟨3, ![1, 512, 4096]⟩ : Shape).Idx) :
    shuffledFlat X y = shuffledFlat A (ix3 (n0 := 16) (n1 := 512) (n2 := 4096) b (y 1) (y 2)) := by
  unfold shuffledFlat
  show (if (y 1).val < 256 then _ else _) = (if (y 1).val < 256 then _ else _)
  split
  · exact h y
  · exact h _

end Cert.Shuffle

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The input array as the region finds it: the argument, reshaped to flat images. -/
theorem V_main_v0 (c : Dev nD) :
    (V m c main_v0 : S16x512x4096.Idx → Elt F .f32)
      = shapeCast S16x512x4096 (m ((c : Thread nD τ).loc main_arg0) : S16x512x64x64.Idx → Elt F .f32) shapeCasts_S16x512x64x64_S16x512x4096 := by
  show StableHlo.after hostOps0 (fun b => m (c, b)) (Proc.devRef .tc main_v0) = _
  after_results
  rfl

/-- Both windows' block index at point `t` is (t, 0, 0). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem N_16 : cfg0.N = 16 := N_0

/-- The input block at point `t` is image `t` of the input array. -/
theorem iblk_apply (c : Dev nD) (t : Fin cfg0.N) (y : S1x512x4096.Idx) :
    (iblk m c 0 t : Vec F S1x512x4096 .f32) y
      = (V m c main_v0 : S16x512x4096.Idx → Elt F .f32) (ix3 (n0 := 16) (n1 := 512) (n2 := 4096) ⟨t.val, N_16 ▸ t.isLt⟩ (y 1) (y 2)) := by
  obtain ⟨e0, e1, e2, -, -, -⟩ := idx_facts t
  unfold iblk
  rw [View.read_apply]
  show V m c main_v0 _ = V m c main_v0 _
  congr 1
  funext a
  apply Fin.ext
  match a with
  | ⟨0, _⟩ => show win0_0.index t 0 * 1 + 1 * (y 0).val = t.val; have : (y 0).val < 1 := (y 0).isLt; rw [e0]; omega
  | ⟨1, _⟩ => show win0_0.index t 1 * 512 + 1 * (y 1).val = (y 1).val; rw [e1]; omega
  | ⟨2, _⟩ => show win0_0.index t 2 * 4096 + 1 * (y 2).val = (y 2).val; rw [e2]; omega

/-- WHAT POINT `t` WRITES BACK: image `t` of the shuffle of the input array. -/
theorem flushed_eq (c : Dev nD) (t : Fin cfg0.N) :
    (dats m 0 c).flushed 1 t
      = ((cfg0.win 1).blk t).view.read (Elt F) (Cert.Shuffle.shuffledFlat (n := 16) (V m c main_v0 : S16x512x4096.Idx → Elt F .f32)) := by
  obtain ⟨-, -, -, e0, e1, e2⟩ := idx_facts t
  show (cfg0.win 1).cut (grid0.coords t) ((dats m 0 c).after 1 t) = _
  rw [after0_1]
  unfold outsAt0
  rw [out_eq]
  funext j
  rw [View.read_apply]
  show Cert.Shuffle.shuffledFlat (n := 1) (iblk m c 0 t : Vec F S1x512x4096 .f32) j = _
  rw [Cert.Shuffle.shuffledFlat_member _ (V m c main_v0 : S16x512x4096.Idx → Elt F .f32) ⟨t.val, N_16 ▸ t.isLt⟩ (iblk_apply m c t) j]
  congr 1
  funext a
  apply Fin.ext
  match a with
  | ⟨0, _⟩ => show t.val = win0_1.index t 0 * 1 + 1 * (j 0).val; have : (j 0).val < 1 := (j 0).isLt; rw [e0]; omega
  | ⟨1, _⟩ => show (j 1).val = win0_1.index t 1 * 512 + 1 * (j 1).val; rw [e1]; omega
  | ⟨2, _⟩ => show (j 2).val = win0_1.index t 2 * 4096 + 1 * (j 2).val; rw [e2]; omega

/-- THE OUTPUT ARRAY after the run: the shuffle of the input array (image `b` is written back by point `b`). -/
theorem final (c : Dev nD) :
    (dats m 0 c).arrAt 1 cfg0.N = Cert.Shuffle.shuffledFlat (n := 16) (V m c main_v0 : S16x512x4096.Idx → Elt F .f32) :=
  (dats m 0 c).arrAt_eq_of_cover 1 _ (fun t _ => flushed_eq m c t) fun i => by
    have h0 : (i 0 : Nat) < 16 := (i 0).isLt
    have h1 : (i 1 : Nat) < 512 := (i 1).isLt
    have h2 : (i 2 : Nat) < 4096 := (i 2).isLt
    have ht : (i 0 : Nat) < cfg0.N := N_16 ▸ h0
    refine ⟨⟨(i 0).val, ht⟩, flush0_1 _, ?_⟩
    obtain ⟨-, -, -, e0', e1, e2⟩ := idx_facts ⟨(i 0).val, ht⟩
    have e0 : win0_1.index ⟨(i 0).val, ht⟩ 0 = (i 0).val := e0'
    show i ∈ ((View.whole main_v1).slice (win0_1.rect ⟨(i 0).val, ht⟩)).set
    rw [View.set_slice_whole, Rect.mem_set_unit]
    intro a
    match a with
    | ⟨0, _⟩ => show win0_1.index ⟨(i 0).val, ht⟩ 0 * 1 ≤ (i 0 : Nat) ∧ (i 0 : Nat) < win0_1.index ⟨(i 0).val, ht⟩ 0 * 1 + 1; rw [e0]; omega
    | ⟨1, _⟩ => show win0_1.index ⟨(i 0).val, ht⟩ 1 * 512 ≤ (i 1 : Nat) ∧ (i 1 : Nat) < win0_1.index ⟨(i 0).val, ht⟩ 1 * 512 + 512; rw [e1]; omega
    | ⟨2, _⟩ => show win0_1.index ⟨(i 0).val, ht⟩ 2 * 4096 ≤ (i 2 : Nat) ∧ (i 2 : Nat) < win0_1.index ⟨(i 0).val, ht⟩ 2 * 4096 + 4096; rw [e2]; omega

/-- The result buffer after the host reshape that follows the region: the output array as a four-axis array. -/
theorem tail_main_v2 (c : Dev nD) :
    (Pipeline.afterTail₀ cfgs (dats m) 0 (V0 m) [hostOps1] c main_v2 : S16x512x64x64.Idx → Elt F .f32)
      = shapeCast S16x512x64x64 ((dats m 0 c).arrAt 1 cfg0.N : S16x512x4096.Idx → Elt F .f32) shapeCasts_S16x512x4096_S16x512x64x64 := by
  unfold Pipeline.afterTail₀
  show StableHlo.after hostOps1 _ (Proc.devRef .tc main_v2) = _
  after_results
  exact congrArg (fun A : S16x512x4096.Idx → Elt F .f32 => shapeCast S16x512x64x64 A shapeCasts_S16x512x4096_S16x512x64x64)
    (Pipeline.withArrays_arr spec0 launch0.win.arr_inj c _ _ 1)

/-- Flattening the images, shuffling, and restoring the two image axes is the shuffle of the four-axis array: position
    64 h + w of a flat image is (row h, column w). -/
theorem unflatten_shuffledFlat (x : S16x512x64x64.Idx → Elt F .f32) :
    shapeCast S16x512x64x64
        (Cert.Shuffle.shuffledFlat (n := 16) (shapeCast S16x512x4096 x shapeCasts_S16x512x64x64_S16x512x4096))
        shapeCasts_S16x512x4096_S16x512x64x64
      = Cert.Shuffle.shuffled x := by
  funext idx
  obtain ⟨b, ch, h, w, rfl⟩ : ∃ (b : Fin 16) (ch : Fin 512) (h : Fin 64) (w : Fin 64), idx = ix4 b ch h w :=
    ⟨idx 0, idx 1, idx 2, idx 3, eq_ix4 idx⟩
  have hb := b.isLt; have hch := ch.isLt; have hh := h.isLt; have hw := w.isLt
  refine (shapeCast_apply _ _ (ix4 b ch h w) (ix3 (n0 := 16) (n1 := 512) (n2 := 4096) b ch ⟨h.val * 64 + w.val, by omega⟩) ?_).trans ?_
  · rw [Shape.rowMajor_val_three, Shape.rowMajor_val_four]
    show (b.val * 512 + ch.val) * 4096 + (h.val * 64 + w.val) = ((b.val * 512 + ch.val) * 64 + h.val) * 64 + w.val
    omega
  unfold Cert.Shuffle.shuffledFlat Cert.Shuffle.shuffled
  show (if ch.val < 256 then _ else _) = (if ch.val < 256 then _ else _)
  have hdiv : (h.val * 64 + w.val) / 64 = h.val := by omega
  have hmod : (h.val * 64 + w.val) % 64 = w.val := by omega
  split
  · refine shapeCast_apply _ _ _ (ix4 b ch h w) ?_
    rw [Shape.rowMajor_val_three, Shape.rowMajor_val_four]
    show ((b.val * 512 + ch.val) * 64 + h.val) * 64 + w.val = (b.val * 512 + ch.val) * 4096 + (h.val * 64 + w.val)
    omega
  · refine shapeCast_apply _ _ _ (ix4 (n0 := 16) (n1 := 512) (n2 := 64) (n3 := 64) b ch
      ⟨Cert.Shuffle.srcRow ch.val h.val w.val, Cert.Shuffle.srcRow_lt _ _ _⟩ ⟨Cert.Shuffle.srcCol ch.val h.val w.val, Cert.Shuffle.srcCol_lt _ _ _⟩) ?_
    rw [Shape.rowMajor_val_three, Shape.rowMajor_val_four]
    show ((b.val * 512 + ch.val) * 64 + Cert.Shuffle.srcRow ch.val h.val w.val) * 64 + Cert.Shuffle.srcCol ch.val h.val w.val
      = (b.val * 512 + ch.val) * 4096 + Cert.Shuffle.srcPos ch.val (h.val * 64 + w.val)
    unfold Cert.Shuffle.srcPos
    rw [hdiv, hmod]
    have := Cert.Shuffle.srcRow_lt ch.val h.val w.val
    have := Cert.Shuffle.srcCol_lt ch.val h.val w.val
    omega

/-- THE KERNEL'S RUN, READ: every weakly fair execution ends with the result buffer at the shuffle of the argument
    and the argument unchanged. -/
theorem run : θ_run defs (onTc (τ := τ) (main (F := F))) ⟨m, fun _ => 0, ρ⟩ fun r => ∀ c : Dev nD,
      r.2.mem ((c.tc : Thread nD τ).loc main_v2) = Cert.Shuffle.shuffled (m ((c.tc : Thread nD τ).loc main_arg0) : S16x512x64x64.Idx → Elt F .f32)
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((tail_main_v2 m c).trans (by rw [final, V_main_v0]; exact unflatten_shuffledFlat _)),
        ((h c).2 main_arg0 (Pipeline.mem_restRefs_of main_arg0 (by decide) (by decide))).trans (W_main_arg0 m (dats m) c)⟩)
    (run_main m ρ)

end Cert.KernelIdeal.KValue

end
-- ==== Proof.RefTerm.lean ====
/-
  The reference's result as ONE pure term of its argument, stage by stage in the order of its host operations:
  the low half of the channels kept; the high half cut into (group, channel, tile row, row, tile column, column),
  the tile axes brought last and merged into one tile axis of sixteen; along that axis a gather by the index table
  `(group + tile) mod 16` (jnp's `%` and negative-index wrap spelt out on 32-bit words, and the fill mask of
  `take_along_axis`); the axes put back; the two halves joined along the channels.
-/
import proofs.«168481_j16930761081418_1_alg».proof.ReferenceIdeal

noncomputable section

namespace Cert.ReferenceIdeal.RefValue

open Idealize.ShloMosaic Cert.ReferenceIdeal
open Cert.ReferenceIdeal.Facts₀ Cert.ReferenceIdeal.Facts

variable {F : FTy → Type} [FloatOps F] [Facts]

/-! ## The index table (integers only) -/

/-- `arange(16)[:, None] + arange(16)[None, :]`: entry (s, k) is the word s + k. -/
def sumTable : IVec S16x16 32 :=
  addi (broadcastInDim S16x16 ![0, 1] bcast_S16x1_S16x16_0_1 (broadcastInDim S16x1 ![0] bcast_S16_S16x1_0 (iotaInDim S16 32 0)))
    (broadcastInDim S16x16 ![0, 1] bcast_S1x16_S16x16_0_1 (broadcastInDim S1x16 ![1] bcast_S16_S1x16_1 (iotaInDim S16 32 0)))

/-- The divisor jnp's `%` really divides by: `where(d == 0, 1, d)` at d = 16. -/
def divisor : IVec S_ 32 :=
  select (cmpi .eq (id (constantI S_ 32 16#32) : IVec S_ 32) (constantI S_ 32 0#32)) (constantI S_ 32 1#32) (id (constantI S_ 32 16#32) : IVec S_ 32)

/-- The truncated remainder of the table by the divisor. -/
def truncRem : IVec S16x16 32 := Host.remsi sumTable (broadcastInDim S16x16 ![] bcast_S_S16x16 divisor)

/-- jnp's `%` (the sign of the divisor): the truncated remainder, moved by the divisor where it is non-zero and its sign
    differs from the divisor's. -/
def modTable : IVec S16x16 32 :=
  select
    (andi
      (cmpi .ne (cmpi .slt truncRem (broadcastInDim S16x16 ![] bcast_S_S16x16 (constantI S_ 32 0#32)))
        (broadcastInDim S16x16 ![] bcast_S_S16x16 (cmpi .slt divisor (constantI S_ 32 0#32))))
      (cmpi .ne truncRem (broadcastInDim S16x16 ![] bcast_S_S16x16 (constantI S_ 32 0#32))))
    (addi truncRem (broadcastInDim S16x16 ![] bcast_S_S16x16 divisor))
    truncRem

/-- The table as `take_along_axis` receives it: [1, 16, 1, 1, 1, 16]. -/
def idxArg : IVec S1x16x1x1x1x16 32 := shapeCast S1x16x1x1x1x16 modTable shapeCasts_S16x16_S1x16x1x1x1x16

/-- Negative indices wrapped (`where(i < 0, i + 16, i)`). -/
def idxWrapped : IVec S1x16x1x1x1x16 32 :=
  select (cmpi .slt idxArg (broadcastInDim S1x16x1x1x1x16 ![] bcast_S_S1x16x1x1x1x16 (constantI S_ 32 0#32)))
    (addi idxArg (broadcastInDim S1x16x1x1x1x16 ![] bcast_S_S1x16x1x1x1x16 (constantI S_ 32 16#32)))
    idxArg

/-- The start indices of the gather: [16, 16, 1]. -/
def startIdx : IVec S16x16x1 32 := shapeCast S16x16x1 idxWrapped shapeCasts_S1x16x1x1x1x16_S16x16x1

/-- Where the start index is in range (0 ≤ i ≤ 15), reduced over the index vector's axis. -/
def inRange : IVec S16x16 1 :=
  Host.reduce IntOp.andi
    (andi (cmpi .sge startIdx (broadcastInDim S16x16x1 ![] bcast_S_S16x16x1 (constantI S_ 32 0#32)))
      (cmpi .sle startIdx (broadcastInDim S16x16x1 ![0, 1, 2] bcast_S1x1x1_S16x16x1_0_1_2
        (broadcastInDim S1x1x1 ![2] bcast_S1_S1x1x1_2 (constantI S1 32 15#32)))))
    (constantI S_ 1 1#1) reducesTo_S16x16x1_S16x16_d2 h_S_

/-! ## The float stages -/

/-- The kept channels 0..255. -/
def keepHalf (x : FVec F S16x512x64x64 .f32) : FVec F S16x256x64x64 .f32 :=
  extractStridedSlice S16x256x64x64 ![0, 0, 0, 0] x slices_S16x512x64x64_S16x256x64x64_0_0_0_0

/-- The shifted channels 256..511. -/
def shiftHalf (x : FVec F S16x512x64x64 .f32) : FVec F S16x256x64x64 .f32 :=
  extractStridedSlice S16x256x64x64 ![0, 256, 0, 0] x slices_S16x512x64x64_S16x256x64x64_0_256_0_0

/-- (batch, group, channel, row, column, tile): the tile axes last and merged. -/
def tilesLast (x : FVec F S16x512x64x64 .f32) : FVec F S16x16x16x16x16x16 .f32 :=
  shapeCast S16x16x16x16x16x16
    (transpose S16x16x16x16x16x4x4 [0, 1, 2, 4, 6, 3, 5]
      (shapeCast S16x16x16x4x16x4x16 (shiftHalf x) shapeCasts_S16x256x64x64_S16x16x16x4x16x4x16)
      transposes_S16x16x16x4x16x4x16_S16x16x16x16x16x4x4_0_1_2_4_6_3_5)
    shapeCasts_S16x16x16x16x16x4x4_S16x16x16x16x16x16

/-- The gather along the tile axis, with `take_along_axis`'s fill where an index is out of range. -/
def taken (x : FVec F S16x512x64x64 .f32) : FVec F S16x16x16x16x16x16 .f32 :=
  select (broadcastInDim S16x16x16x16x16x16 ![1, 5] bcast_S16x16_S16x16x16x16x16x16_1_5 inRange)
    (Host.gather gather_S16x16x16x16x16x16_S16x16x1_S16x16x16x16x16x16_0234_5_1_0_5_2_1611616161 (tilesLast x) startIdx)
    (broadcastInDim S16x16x16x16x16x16 ![] bcast_S_S16x16x16x16x16x16 (constant S_ .f32 0x7FC00000#32))

/-- The axes put back: [16, 256, 64, 64]. -/
def shiftedHalf (x : FVec F S16x512x64x64 .f32) : FVec F S16x256x64x64 .f32 :=
  shapeCast S16x256x64x64
    (transpose S16x256x4x16x4x16 [0, 1, 4, 2, 5, 3]
      (shapeCast S16x256x16x16x4x4 (taken x) shapeCasts_S16x16x16x16x16x16_S16x256x16x16x4x4)
      transposes_S16x256x16x16x4x4_S16x256x4x16x4x16_0_1_4_2_5_3)
    shapeCasts_S16x256x4x16x4x16_S16x256x64x64

/-- THE REFERENCE'S RESULT as a term of its argument. -/
def result (x : FVec F S16x512x64x64 .f32) : FVec F S16x512x64x64 .f32 :=
  concatenate S16x512x64x64 1 [⟨S16x256x64x64, keepHalf x⟩, ⟨S16x256x64x64, shiftedHalf x⟩]
    concatenates_S16x256x64x64_S16x256x64x64_S16x512x64x64_d1

end Cert.ReferenceIdeal.RefValue

end
-- ==== Proof.RefRun.lean ====
/-
  The reference's run: every weakly fair execution of its @main ends with the result buffer at `RefValue.result` of
  the argument and the argument unchanged.
-/
import proofs.«168481_j16930761081418_1_alg».proof.Proof.RefTerm
import proofs.«168481_j16930761081418_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's sixty-two operations in order, the two calls unfolded at their sites over the calls' buffer records:
    thirteen of @main's own (the two channel halves, the tile axes brought last, the sum table), `remainder`'s
    twenty-one (the selection of its nested `_where` among them), the table's reshape, `take_along_axis`'s
    twenty-three, and @main's last four (the axes put back, the halves joined). -/
abbrev ops : List (HloOp τ sig (Elt F)) :=
  [ StableHlo.unary main_arg0 main_v0 ((extractStridedSlice S16x256x64x64 ![0, 0, 0, 0] · slices_S16x512x64x64_S16x256x64x64_0_0_0_0) : (⟨S16x512x64x64, .f32⟩ : BufTy).Contents (Elt F) → (⟨S16x256x64x64, .f32⟩ : BufTy).Contents (Elt F)),
    StableHlo.unary main_arg0 main_v1 ((extractStridedSlice S16x256x64x64 ![0, 256, 0, 0] · slices_S16x512x64x64_S16x256x64x64_0_256_0_0) : (⟨S16x512x64x64, .f32⟩ : BufTy).Contents (Elt F) → (⟨S16x256x64x64, .f32⟩ : BufTy).Contents (Elt F)),
    StableHlo.reshape main_v1 main_v2 rfl shapeCasts_S16x256x64x64_S16x16x16x4x16x4x16,
    StableHlo.unary main_v2 main_v3 ((transpose S16x16x16x16x16x4x4 [0, 1, 2, 4, 6, 3, 5] · transposes_S16x16x16x4x16x4x16_S16x16x16x16x16x4x4_0_1_2_4_6_3_5) : (⟨S16x16x16x4x16x4x16, .f32⟩ : BufTy).Contents (Elt F) → (⟨S16x16x16x16x16x4x4, .f32⟩ : BufTy).Contents (Elt F)),
    StableHlo.reshape main_v3 main_v4 rfl shapeCasts_S16x16x16x16x16x4x4_S16x16x16x16x16x16,
    StableHlo.nullary main_v5 (iotaInDim S16 32 0),
    StableHlo.unary main_v5 main_v6 (broadcastInDim S16x1 ![0] bcast_S16_S16x1_0 : (⟨S16, .i32⟩ : BufTy).Contents (Elt F) → (⟨S16x1, .i32⟩ : BufTy).Contents (Elt F)),
    StableHlo.nullary main_v7 (iotaInDim S16 32 0),
    StableHlo.unary main_v7 main_v8 (broadcastInDim S1x16 ![1] bcast_S16_S1x16_1 : (⟨S16, .i32⟩ : BufTy).Contents (Elt F) → (⟨S1x16, .i32⟩ : BufTy).Contents (Elt F)),
    StableHlo.unary main_v6 main_v9 (broadcastInDim S16x16 ![0, 1] bcast_S16x1_S16x16_0_1 : (⟨S16x1, .i32⟩ : BufTy).Contents (Elt F) → (⟨S16x16, .i32⟩ : BufTy).Contents (Elt F)),
    StableHlo.unary main_v8 main_v10 (broadcastInDim S16x16 ![0, 1] bcast_S1x16_S16x16_0_1 : (⟨S1x16, .i32⟩ : BufTy).Contents (Elt F) → (⟨S16x16, .i32⟩ : BufTy).Contents (Elt F)),
    StableHlo.binary main_v9 main_v10 main_v11 (addi : (⟨S16x16, .i32⟩ : BufTy).Contents (Elt F) → (⟨S16x16, .i32⟩ : BufTy).Contents (Elt F) → (⟨S16x16, .i32⟩ : BufTy).Contents (Elt F)),
    StableHlo.nullary main_c (constantI S_ 32 16#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S16x16 ![] bcast_S_S16x16),
    StableHlo.TRef.binary (.of main_v11) main_call0.v3 main_call0.v4 Host.remsi,
    StableHlo.TRef.nullary main_call0.c_1 (constantI S_ 32 0#32),
    StableHlo.TRef.unary main_call0.c_1 main_call0.v5 (broadcastInDim S16x16 ![] bcast_S_S16x16),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S16x16 ![] bcast_S_S16x16),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S16x16 ![] bcast_S_S16x16),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S16x16 ![] bcast_S_S16x16),
    StableHlo.TRef.binary main_call0.v4 main_call0.v13 main_call0.v14 addi,
    StableHlo.TRef.ternary main_call0.v12 main_call0.v14 main_call0.v4 main_call0.v15 select,
    StableHlo.reshape main_v12 main_v13 rfl shapeCasts_S16x16_S1x16x1x1x1x16,
    StableHlo.TRef.nullary main_call1.c (constantI S_ 32 0#32),
    StableHlo.TRef.unary main_call1.c main_call1.v0 (broadcastInDim S1x16x1x1x1x16 ![] bcast_S_S1x16x1x1x1x16),
    StableHlo.TRef.binary (.of main_v13) main_call1.v0 main_call1.v1 (cmpi .slt),
    StableHlo.TRef.nullary main_call1.c_0 (constantI S_ 32 16#32),
    StableHlo.TRef.unary main_call1.c_0 main_call1.v2 (broadcastInDim S1x16x1x1x1x16 ![] bcast_S_S1x16x1x1x1x16),
    StableHlo.TRef.binary (.of main_v13) main_call1.v2 main_call1.v3 addi,
    StableHlo.TRef.ternary main_call1.v1 main_call1.v3 (.of main_v13) main_call1.v4 select,
    StableHlo.TRef.reshape main_call1.v4 main_call1.v5 rfl shapeCasts_S1x16x1x1x1x16_S16x16x1,
    StableHlo.TRef.nullary main_call1.c_1 (constantI S1 32 15#32),
    StableHlo.TRef.nullary main_call1.c_2 (constantI S_ 32 0#32),
    StableHlo.TRef.unary main_call1.c_2 main_call1.v6 (broadcastInDim S16x16x1 ![] bcast_S_S16x16x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16x16x1 ![0, 1, 2] bcast_S1x1x1_S16x16x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16x16x1_S16x16_d2 h_S_),
    StableHlo.TRef.binary (.of main_v4) main_call1.v5 main_call1.v13 (fun x i => Host.gather gather_S16x16x16x16x16x16_S16x16x1_S16x16x16x16x16x16_0234_5_1_0_5_2_1611616161 x i),
    StableHlo.TRef.unary main_call1.v12 main_call1.v14 (broadcastInDim S16x16x16x16x16x16 ![1, 5] bcast_S16x16_S16x16x16x16x16x16_1_5),
    StableHlo.TRef.nullary main_call1.cst (constant S_ .f32 0x7FC00000#32),
    StableHlo.TRef.unary main_call1.cst main_call1.v15 (broadcastInDim S16x16x16x16x16x16 ![] bcast_S_S16x16x16x16x16x16),
    StableHlo.TRef.ternary main_call1.v14 main_call1.v13 main_call1.v15 main_call1.v16 select,
    StableHlo.reshape main_v14 main_v15 rfl shapeCasts_S16x16x16x16x16x16_S16x256x16x16x4x4,
    StableHlo.unary main_v15 main_v16 ((transpose S16x256x4x16x4x16 [0, 1, 4, 2, 5, 3] · transposes_S16x256x16x16x4x4_S16x256x4x16x4x16_0_1_4_2_5_3) : (⟨S16x256x16x16x4x4, .f32⟩ : BufTy).Contents (Elt F) → (⟨S16x256x4x16x4x16, .f32⟩ : BufTy).Contents (Elt F)),
    StableHlo.reshape main_v16 main_v17 rfl shapeCasts_S16x256x4x16x4x16_S16x256x64x64,
    StableHlo.binary main_v0 main_v17 main_v18 ((fun a b => concatenate S16x512x64x64 1 [⟨S16x256x64x64, a⟩, ⟨S16x256x64x64, b⟩] concatenates_S16x256x64x64_S16x256x64x64_S16x512x64x64_d1) : (⟨S16x256x64x64, .f32⟩ : BufTy).Contents (Elt F) → (⟨S16x256x64x64, .f32⟩ : BufTy).Contents (Elt F) → (⟨S16x512x64x64, .f32⟩ : BufTy).Contents (Elt F)) ]

set_option maxRecDepth 1024 in
/-- @main is that straight line: the callees' definitions unfolded at their calls, both sides are one chain of
    `hlo` steps once sequencing is reassociated. -/
theorem main_eq (c : Dev nD) : main (F := F) c = seq ops := by
  simp only [main, fn_remainder.body, fn_where.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., reshape_bufs_sub .., unary_bufs_sub .., reshape_bufs_sub .., nullary_bufs_sub ..,
    unary_bufs_sub .., nullary_bufs_sub .., unary_bufs_sub .., unary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., reshape_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., reshape_bufs_sub .., unary_bufs_sub ..,
    reshape_bufs_sub .., binary_bufs_sub ..⟩

/-! ## What the buffers hold at the end

The two operands of the closing concatenate are read one at a time: each operation's result at its own buffer is its
function's value, at any other buffer what was there; the typed references' transports are the identity at these
literal references; the small definitions of the reference's term are then opened and the two sides are the same
term. The operations themselves stay folded while the sides are compared (the equation never looks inside them). -/

attribute [local irreducible] Host.reduce Host.gather Host.remsi concatenate shapeCast transpose broadcastInDim extractStridedSlice
  select cmpi addi andi iotaInDim constantI constant in
set_option maxRecDepth 16384 in
set_option maxHeartbeats 1000000 in
/-- The kept half: the first operand of the concatenate is the low channels' slice of the argument. -/
theorem keep_eq (V : Valuation τ sig (Elt F)) :
    after ops V (main_v0 : DevRef τ sig) = keepHalf (V (main_arg0 : DevRef τ sig)) := by
  after_results_simp
  unfold keepHalf
  rfl

attribute [local irreducible] Host.reduce Host.gather Host.remsi concatenate shapeCast transpose broadcastInDim extractStridedSlice
  select cmpi addi andi iotaInDim constantI constant in
set_option maxRecDepth 16384 in
set_option maxHeartbeats 1000000 in
/-- The shifted half: the second operand of the concatenate is the high channels cut into tiles, gathered along the
    tile axis by the table `(group + tile) mod 16` under the fill mask, and put back. -/
theorem shifted_eq (V : Valuation τ sig (Elt F)) :
    after ops V (main_v17 : DevRef τ sig) = shiftedHalf (V (main_arg0 : DevRef τ sig)) := by
  after_results_simp
  simp only [TRef.ofBuf, TRef.toBuf, cast_eq]
  unfold shiftedHalf taken tilesLast shiftHalf inRange startIdx idxWrapped idxArg modTable truncRem divisor sumTable
  rfl

/-- A line followed by one more operation: the fold runs the line, then the operation. -/
theorem after_snoc (l : List (HloOp τ sig (Elt F))) (op : HloOp τ sig (Elt F)) (V : Valuation τ sig (Elt F)) :
    after (l ++ [op]) V = op.result (after l V) := by
  induction l generalizing V with
  | nil => rfl
  | cons o l ih => rw [List.cons_append, after_cons, after_cons, ih]

/-- A line ending in a two-operand operation that overwrites neither operand: its result buffer ends at the
    operation's function of what the operands' buffers END at. -/
theorem after_snoc_binary (l : List (HloOp τ sig (Elt F))) (a b y : Ref sig .tc)
    (f : a.ty.Contents (Elt F) → b.ty.Contents (Elt F) → y.ty.Contents (Elt F)) (ha hb hy)
    (V : Valuation τ sig (Elt F)) (hay : a ≠ y) (hby : b ≠ y) :
    after (l ++ [binary a b y f ha hb hy]) V (Proc.devRef .tc y)
      = f (after (l ++ [binary a b y f ha hb hy]) V (Proc.devRef .tc a))
          (after (l ++ [binary a b y f ha hb hy]) V (Proc.devRef .tc b)) := by
  rw [after_snoc, binary_result, binary_result_ne _ _ _ _ _ _ _ _ hay, binary_result_ne _ _ _ _ _ _ _ _ hby]

/-- The line is its first sixty-one operations followed by the concatenate. -/
theorem ops_snoc : (ops : List (HloOp τ sig (Elt F))) = ops.dropLast ++
    [StableHlo.binary main_v0 main_v17 main_v18 ((fun a b => concatenate S16x512x64x64 1 [⟨S16x256x64x64, a⟩, ⟨S16x256x64x64, b⟩] concatenates_S16x256x64x64_S16x256x64x64_S16x512x64x64_d1) : (⟨S16x256x64x64, .f32⟩ : BufTy).Contents (Elt F) → (⟨S16x256x64x64, .f32⟩ : BufTy).Contents (Elt F) → (⟨S16x512x64x64, .f32⟩ : BufTy).Contents (Elt F))] := rfl

/-- The result buffer ends at the reference's term of the argument: the concatenate of the two halves read above. -/
theorem out_eq (V : Valuation τ sig (Elt F)) :
    after ops V (main_v18 : DevRef τ sig) = result (V (main_arg0 : DevRef τ sig)) := by
  rw [ops_snoc, after_snoc_binary]
  · rw [← ops_snoc, keep_eq, shifted_eq]
    rfl
  · decide
  · decide

/-- No operation writes the argument's buffer. -/
theorem arg0_eq (V : Valuation τ sig (Elt F)) :
    after ops V (main_arg0 : DevRef τ sig) = V (main_arg0 : DevRef τ sig) := by
  after_results_simp

/-- On every device, for any float values, from any memory with zero counters: every weakly fair execution of
    @main terminates with the result buffer at `result` of the argument's launch contents and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = result (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (out_eq _), (h c main_arg0).trans (arg0_eq _)⟩)
    (run_seq scopedRefs_eq scopedSems_eq defs main (fun _ => ops) main_eq (fun _ => ops_sub) m ρ)

end Cert.ReferenceIdeal.RefValue

end
-- ==== Proof.RefTable.lean ====
/-
  The index table's contents: the start index at (group s, tile k) is the word (s + k) mod 16, and every start index is in
  range, so the fill mask is all ones.

  The table is followed stage by stage. The sum s + k of two positions below 16 is below 31, so it does not wrap and its
  sign bit is clear; the divisor is the word 16; the truncated remainder of a non-negative word by 16 is the natural
  remainder; neither the remainder nor the divisor is negative, so the sign correction of the floored remainder and the
  wrap of negative indices both leave the word alone; the two reshapes keep the row-major position 16 s + k. A word
  below 16 lies between 0 and 15 read signed, so each conjunct of the range test is 1, and an and-fold of ones from 1 is 1.
-/
import proofs.«168481_j16930761081418_1_alg».proof.Proof.RefTerm
import proofs.«168481_j16930761081418_1_alg».proof.Proof.Gen.ReferenceIdeal
import Idealize.ShloMosaic.Lib.ValueIdx
import Idealize.ShloMosaic.Lib.ValueIdxRank6
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## Words below 2³¹ -/

/-- A 32-bit word below 2³¹ has a clear sign bit. -/
private theorem msb_small (r : BitVec 32) (hr : r.toNat < 2 ^ 31) : r.msb = false :=
  BitVec.msb_eq_false_iff_two_mul_lt.mpr (by omega)

/-- Such a word is not negative: the signed test "r < 0" is the bit 0. -/
private theorem slt_zero_small (r : BitVec 32) (hr : r.toNat < 2 ^ 31) : IntOp.cmpi .slt r 0#32 = 0#1 := by
  unfold IntOp.cmpi
  rw [BitVec.slt_zero_eq_msb, msb_small r hr]
  rfl

/-- The signed remainder of a non-negative word by 16 is the natural remainder: the divisor is neither zero nor minus one
    (no division corner), both sign bits are clear, so the signed remainder is the unsigned one. -/
private theorem remsi_small (n : Nat) (hn : n < 2 ^ 31) :
    IntOp.remsi .host (BitVec.ofNat 32 n) 16#32 = BitVec.ofNat 32 (n % 16) := by
  have hc : ¬ IntOp.SDivCorner (BitVec.ofNat 32 n) 16#32 := by
    rintro (h | ⟨_, h⟩)
    · exact absurd h (by decide)
    · exact absurd h (by decide)
  have hm : (BitVec.ofNat 32 n).msb = false := msb_small _ (by rw [BitVec.toNat_ofNat]; omega)
  have h16 : (16#32).msb = false := by decide
  unfold IntOp.remsi
  rw [if_neg hc]
  unfold BitVec.srem
  rw [hm, h16]
  apply BitVec.eq_of_toNat_eq
  show ((BitVec.ofNat 32 n) % 16#32).toNat = _
  rw [BitVec.toNat_umod, BitVec.toNat_ofNat, BitVec.toNat_ofNat, BitVec.toNat_ofNat]
  have e : (16 : ℕ) % 2 ^ 32 = 16 := by norm_num
  rw [e]
  omega

/-- A word below 16 passes the signed range test 0 ≤ r ≤ 15. -/
private theorem inBounds_small (r : BitVec 32) (hr : r.toNat < 16) :
    IntOp.andi (IntOp.cmpi .sge r 0#32) (IntOp.cmpi .sle r 15#32) = 1#1 := by
  have hi : r.toInt = (r.toNat : Int) := by
    rw [BitVec.toInt_eq_msb_cond, msb_small r (by omega)]; simp
  have h15 : (15#32).toInt = 15 := by decide
  have h1 : IntOp.cmpi .sge r 0#32 = 1#1 := by
    show BitVec.ofBool ((0#32).sle r) = 1#1
    rw [BitVec.sle, hi, BitVec.toInt_zero]
    simp
  have h2 : IntOp.cmpi .sle r 15#32 = 1#1 := by
    show BitVec.ofBool (r.sle 15#32) = 1#1
    rw [BitVec.sle, hi, h15]
    have : ((r.toNat : Int) ≤ 15) := by omega
    simp [this]
  rw [h1, h2]; rfl

/-! ## The table, stage by stage -/

/-- Entry (s, k) of the sum table is the word s plus the word k. -/
theorem sumTable_apply (i : S16x16.Idx) :
    sumTable i = BitVec.ofNat 32 (i 0).val + BitVec.ofNat 32 (i 1).val := rfl

/-- The divisor is 16: the test "16 = 0" fails, so the select keeps 16. -/
theorem divisor_apply (i : S_.Idx) : divisor i = 16#32 := rfl

/-- The truncated remainder at (s, k) is (s + k) mod 16: s + k < 31 does not wrap and is not negative. -/
theorem truncRem_apply (i : S16x16.Idx) :
    truncRem i = BitVec.ofNat 32 (((i 0).val + (i 1).val) % 16) := by
  have h0 : (i 0).val < 16 := (i 0).isLt
  have h1 : (i 1).val < 16 := (i 1).isLt
  show IntOp.remsi .host (BitVec.ofNat 32 (i 0).val + BitVec.ofNat 32 (i 1).val) 16#32 = _
  rw [← BitVec.ofNat_add]
  exact remsi_small _ (by omega)

/-- Every truncated remainder is below 2³¹ (it is below 16). -/
theorem truncRem_lt (i : S16x16.Idx) : (truncRem i).toNat < 2 ^ 31 := by
  rw [truncRem_apply, BitVec.toNat_ofNat]; omega

/-- The floored remainder is the truncated one: the remainder is not negative and the divisor is not negative, so their
    signs agree and the correction mask is 0 everywhere. -/
theorem modTable_apply (i : S16x16.Idx) : modTable i = truncRem i := by
  show Scalar.select (IntOp.andi (IntOp.cmpi .ne (IntOp.cmpi .slt (truncRem i) 0#32) (IntOp.cmpi .slt 16#32 0#32))
      (IntOp.cmpi .ne (truncRem i) 0#32)) (IntOp.addi (truncRem i) 16#32) (truncRem i) = truncRem i
  rw [slt_zero_small _ (truncRem_lt i)]
  have h2 : IntOp.cmpi .slt 16#32 0#32 = 0#1 := by decide
  have h3 : IntOp.cmpi .ne 0#1 0#1 = 0#1 := by decide
  have h4 : ∀ b : BitVec 1, IntOp.andi 0#1 b = 0#1 := by decide
  rw [h2, h3, h4, select_zero]

/-- The reshape [16, 16] → [1, 16, 1, 1, 1, 16]: entry (0, s, 0, 0, 0, k) is entry (s, k), both at row-major position
    16 s + k (the unit axes' coordinates are 0). -/
theorem idxArg_apply (j : S1x16x1x1x1x16.Idx) : idxArg j = modTable (ix2 (j 1) (j 5)) := by
  have h0 : (j 0).val < 1 := (j 0).isLt
  have h2 : (j 2).val < 1 := (j 2).isLt
  have h3 : (j 3).val < 1 := (j 3).isLt
  have h4 : (j 4).val < 1 := (j 4).isLt
  unfold idxArg
  refine shapeCast_apply _ _ j (ix2 (j 1) (j 5)) ?_
  rw [Shape.rowMajor_val_six, Shape.rowMajor_val_two]
  show (j 1).val * 16 + (j 5).val
    = (((((j 0).val * 16 + (j 1).val) * 1 + (j 2).val) * 1 + (j 3).val) * 1 + (j 4).val) * 16 + (j 5).val
  omega

/-- No index is negative, so the wrap of negative indices changes nothing. -/
theorem idxWrapped_apply (j : S1x16x1x1x1x16.Idx) : idxWrapped j = idxArg j := by
  show Scalar.select (IntOp.cmpi .slt (idxArg j) 0#32) (IntOp.addi (idxArg j) 16#32) (idxArg j) = idxArg j
  rw [slt_zero_small _ (by rw [idxArg_apply, modTable_apply]; exact truncRem_lt _), select_zero]

/-- The start index at (s, k, 0) is the word (s + k) mod 16: the reshape to [16, 16, 1] keeps the row-major position
    16 s + k. -/
theorem startIdx_apply (i : S16x16x1.Idx) : startIdx i = BitVec.ofNat 32 (((i 0).val + (i 1).val) % 16) := by
  have h2 : (i 2).val < 1 := (i 2).isLt
  unfold startIdx
  rw [shapeCast_apply idxWrapped _ i (ix6 (0 : Fin 1) (i 0) (0 : Fin 1) (0 : Fin 1) (0 : Fin 1) (i 1)) (by
    rw [Shape.rowMajor_val_six, Shape.rowMajor_val_three]
    show (((((0 : ℕ) * 16 + (i 0).val) * 1 + 0) * 1 + 0) * 1 + 0) * 16 + (i 1).val
      = ((i 0).val * 16 + (i 1).val) * 1 + (i 2).val
    omega)]
  rw [idxWrapped_apply, idxArg_apply, modTable_apply, truncRem_apply]

/-! ## The fill mask -/

/-- A left fold by "and" of ones, from 1, is 1, whatever the list. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- Every start index is below 16, so the range test is 1 at every position and its and-reduction from 1 is 1. -/
theorem inRange_eq : inRange = fun _ => 1#1 := by
  funext j
  unfold inRange Host.reduce
  refine foldl_andi_ones _ (fun n => ?_) _
  show IntOp.andi (IntOp.cmpi .sge (startIdx _) 0#32) (IntOp.cmpi .sle (startIdx _) 15#32) = 1#1
  exact inBounds_small _ (by rw [startIdx_apply, BitVec.toNat_ofNat]; omega)

end Cert.ReferenceIdeal.RefValue

end
-- ==== Proof.LibIdx7.lean ====
/-
  Rank-7 indices by coordinates. `ix7` builds a rank-7 index from its seven coordinates, `eq_ix7` says every rank-7
  index is of that form, and `Shape.rowMajor_val_seven` spells its row-major position as one sum of products, a form
  linear arithmetic can use once the extents are literals. The rank-7 members of the families `ix0` … `ix6` and
  `Shape.rowMajor_val_one` … `rowMajor_val_six`.
-/
import Idealize.ShloMosaic.Lib.ValueIdx

namespace Idealize.ShloMosaic

/-- Rank 7: the row-major position as one sum of products (Horner form, the leading coordinate innermost). -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

end ValueIdx

end Idealize.ShloMosaic
-- ==== Proof.RefRead.lean ====
/-
  The reference's term, read index by index, is the tile shuffle `Cert.Shuffle.shuffled`.

  Each stage of the term moves data only, so each is read at an index as the previous stage at ONE index: a slice adds
  its offsets, a reshape keeps the row-major position, a transpose permutes the coordinates, the gather replaces the tile
  coordinate `k` of group `s` by the table's entry `(s + k) mod 16` (which is in range, so the clamp keeps it and the fill
  mask is all ones), and the concatenation reads its first piece below channel 256 and its second piece from there on.
  Chained, result index (b, c, h, w) with c ≥ 256 reads the argument at channel c, tile
  `((c − 256) / 16 + 4 (h / 16) + w / 16) mod 16`, the position inside the tile kept: the specification's `srcRow`, `srcCol`.
-/
import proofs.«168481_j16930761081418_1_alg».proof.Proof.RefTable
import proofs.«168481_j16930761081418_1_alg».proof.Proof.Spec
import proofs.«168481_j16930761081418_1_alg».proof.Proof.LibIdx7
import Idealize.ShloMosaic.Lib.ValueIdx
import Idealize.ShloMosaic.Lib.ValueIdxRank6
import Idealize.ShloMosaic.Lib.Pipeline.Value

noncomputable section

namespace Cert.ReferenceIdeal.RefValue

open Cert.ReferenceIdeal Cert.ReferenceIdeal.Gen Idealize.ShloMosaic Idealize.ShloMosaic.ValueIdx

variable {F : FTy → Type} [FloatOps F]

/-! ## The two slices -/

/-- The kept half at (b, c, h, w) is the argument at the same place. -/
theorem keepHalf_apply (x : FVec F S16x512x64x64 .f32) (b : Fin 16) (c : Fin 256) (h w : Fin 64) :
    keepHalf x (ix4 b c h w) = x (ix4 b ⟨c.val, by omega⟩ h w) := by
  unfold keepHalf
  exact extractStridedSlice_apply _ _ _ _ _ (fun a => match a with
    | ⟨0, _⟩ => by show b.val = 0 + b.val; omega
    | ⟨1, _⟩ => by show c.val = 0 + c.val; omega
    | ⟨2, _⟩ => by show h.val = 0 + h.val; omega
    | ⟨3, _⟩ => by show w.val = 0 + w.val; omega)

/-- The shifted half at (b, c, h, w) is the argument at channel 256 + c. -/
theorem shiftHalf_apply (x : FVec F S16x512x64x64 .f32) (b : Fin 16) (c : Fin 256) (h w : Fin 64) :
    shiftHalf x (ix4 b c h w) = x (ix4 b ⟨256 + c.val, by omega⟩ h w) := by
  unfold shiftHalf
  exact extractStridedSlice_apply _ _ _ _ _ (fun a => match a with
    | ⟨0, _⟩ => by show b.val = 0 + b.val; omega
    | ⟨1, _⟩ => by show 256 + c.val = 256 + c.val; omega
    | ⟨2, _⟩ => by show h.val = 0 + h.val; omega
    | ⟨3, _⟩ => by show w.val = 0 + w.val; omega)

/-! ## The tile axes brought last -/

/-- (batch b, group s, channel cc, row i, column j, tile k) of the regrouped array is the argument at channel
    256 + 16 s + cc, row 16 (k / 4) + i, column 16 (k % 4) + j: tile `k` sits at tile row `k / 4`, tile column `k % 4`. -/
theorem tilesLast_apply (x : FVec F S16x512x64x64 .f32) (b s cc i j k : Fin 16) :
    tilesLast x (ix6 b s cc i j k)
      = x (ix4 b ⟨256 + (16 * s.val + cc.val), by omega⟩ ⟨16 * (k.val / 4) + i.val, by omega⟩
          ⟨16 * (k.val % 4) + j.val, by omega⟩) := by
  unfold tilesLast
  -- the outer reshape: the tile axis splits into (tile row, tile column)
  refine (shapeCast_apply _ _ (ix6 b s cc i j k)
    (ix7 b s cc i j (⟨k.val / 4, by omega⟩ : Fin 4) (⟨k.val % 4, by omega⟩ : Fin 4))
    (by rw [Shape.rowMajor_val_seven, Shape.rowMajor_val_six]
        show (((((b.val * 16 + s.val) * 16 + cc.val) * 16 + i.val) * 16 + j.val) * 4 + k.val / 4) * 4 + k.val % 4
          = ((((b.val * 16 + s.val) * 16 + cc.val) * 16 + i.val) * 16 + j.val) * 16 + k.val
        omega)).trans ?_
  -- the transpose [0, 1, 2, 4, 6, 3, 5]: result axis n carries source axis perm[n]
  refine (transpose_apply _ _ _ _
    (ix7 b s cc (⟨k.val / 4, by omega⟩ : Fin 4) i (⟨k.val % 4, by omega⟩ : Fin 4) j)
    (fun a => match a with
      | ⟨0, _⟩ => rfl | ⟨1, _⟩ => rfl | ⟨2, _⟩ => rfl | ⟨3, _⟩ => rfl | ⟨4, _⟩ => rfl | ⟨5, _⟩ => rfl | ⟨6, _⟩ => rfl)).trans ?_
  -- the inner reshape: (group, channel in group) merge into the channel, (tile row, row) and (tile column, column) into the image's row and column
  refine (shapeCast_apply _ _ _
    (ix4 b (⟨16 * s.val + cc.val, by omega⟩ : Fin 256) (⟨16 * (k.val / 4) + i.val, by omega⟩ : Fin 64)
      (⟨16 * (k.val % 4) + j.val, by omega⟩ : Fin 64))
    (by rw [Shape.rowMajor_val_four, Shape.rowMajor_val_seven]
        show ((b.val * 256 + (16 * s.val + cc.val)) * 64 + (16 * (k.val / 4) + i.val)) * 64 + (16 * (k.val % 4) + j.val)
          = (((((b.val * 16 + s.val) * 16 + cc.val) * 4 + k.val / 4) * 16 + i.val) * 4 + k.val % 4) * 16 + j.val
        omega)).trans ?_
  exact shiftHalf_apply x b _ _ _

/-! ## The gather along the tile axis -/

/-- The gather's dimension numbers: operand axes 0, 2, 3, 4 are offset axes, axis 1 is the batching axis paired with the
    table's axis 0, axis 5 is collapsed and indexed by the table's entry. -/
abbrev tileGather := gather_S16x16x16x16x16x16_S16x16x1_S16x16x16x16x16x16_0234_5_1_0_5_2_1611616161

/-- A word below 16 read signed is its value. -/
theorem toInt_toNat_ofNat_small (n : Nat) (hn : n < 16) : (BitVec.ofNat 32 n).toInt.toNat = n := by
  have h1 : (BitVec.ofNat 32 n).toNat = n := by rw [BitVec.toNat_ofNat]; omega
  unfold BitVec.toInt
  rw [h1, if_pos (by omega)]
  exact Int.toNat_natCast n

/-- An offset axis `a` of the gather (neither collapsed nor batching, not named by the start index map) reads the result's
    coordinate on the offset axis in `a`'s position. -/
theorem gather_offset_axis (J : S16x16x16x16x16x16.Idx) (a : Fin 6) (ha : a ∉ tileGather.startIndexMap)
    (hb : a ∉ tileGather.operandBatchingDims) (hk : a ∈ tileGather.sKept) :
    tileGather.start J startIdx a + tileGather.batchCoord J a + tileGather.offCoord J a
      = (J (tileGather.offsetDims[tileGather.sKept.idxOf a]'(by
          rw [tileGather.offset_length]; exact List.idxOf_lt_length_iff.2 hk))).val := by
  rw [GatherDims.batchCoord_eq_zero _ _ _ hb]
  unfold GatherDims.start
  rw [dif_neg ha]
  unfold GatherDims.offCoord
  rw [dif_pos hk]
  simp only [Nat.zero_add, Nat.add_zero]

/-- The gather read at (b, s, cc, i, j, k): the batch, channel, row and column coordinates are kept, the group axis is
    the batching axis, and the tile coordinate is the table's entry (s, k), the word (s + k) mod 16, which the clamp into
    [0, 15] keeps. -/
theorem gather_apply {α : Type} (y : S16x16x16x16x16x16.Idx → α) (b s cc i j k : Fin 16) :
    Host.gather tileGather y startIdx (ix6 b s cc i j k)
      = y (ix6 b s cc i j ⟨(s.val + k.val) % 16, Nat.mod_lt _ (by decide)⟩) := by
  unfold Host.gather
  refine congrArg y (funext fun a => Fin.ext ?_)
  match a with
  | ⟨0, _⟩ => exact (gather_offset_axis (ix6 b s cc i j k) 0 (by decide) (by decide) (by decide)).trans rfl
  | ⟨2, _⟩ => exact (gather_offset_axis (ix6 b s cc i j k) 2 (by decide) (by decide) (by decide)).trans rfl
  | ⟨3, _⟩ => exact (gather_offset_axis (ix6 b s cc i j k) 3 (by decide) (by decide) (by decide)).trans rfl
  | ⟨4, _⟩ => exact (gather_offset_axis (ix6 b s cc i j k) 4 (by decide) (by decide) (by decide)).trans rfl
  | ⟨1, _⟩ =>
    -- the batching axis: no start, no offset; the coordinate of the table's paired axis 0, which is the result's axis 1
    show tileGather.start (ix6 b s cc i j k) startIdx (1 : Fin 6) + tileGather.batchCoord (ix6 b s cc i j k) (1 : Fin 6)
      + tileGather.offCoord (ix6 b s cc i j k) (1 : Fin 6) = s.val
    rw [GatherDims.offCoord_eq_zero _ _ _ (by decide)]
    unfold GatherDims.start
    rw [dif_neg (by decide)]
    unfold GatherDims.batchCoord
    rw [dif_pos (by decide)]
    simp only [Nat.zero_add, Nat.add_zero]
    rfl
  | ⟨5, _⟩ =>
    -- the collapsed axis: the start index alone, read off the table at (s, k, 0), signed, clamped into [0, 16 − 1]
    show tileGather.start (ix6 b s cc i j k) startIdx (5 : Fin 6) + tileGather.batchCoord (ix6 b s cc i j k) (5 : Fin 6)
      + tileGather.offCoord (ix6 b s cc i j k) (5 : Fin 6) = (s.val + k.val) % 16
    rw [GatherDims.batchCoord_eq_zero _ _ _ (by decide), GatherDims.offCoord_eq_zero _ _ _ (by decide)]
    unfold GatherDims.start
    rw [dif_pos (by decide)]
    have hsi : tileGather.siIdx (ix6 b s cc i j k) ⟨List.idxOf (5 : Fin 6) tileGather.startIndexMap,
        List.idxOf_lt_length_iff.2 (by decide)⟩ = ix3 s k (⟨0, Nat.one_pos⟩ : Fin 1) := by
      funext a; refine Fin.ext ?_
      match a with
      | ⟨0, _⟩ => rfl
      | ⟨1, _⟩ => rfl
      | ⟨2, _⟩ => rfl
    rw [hsi, startIdx_apply]
    show min (BitVec.ofNat 32 ((s.val + k.val) % 16)).toInt.toNat (16 - 1) + 0 + 0 = (s.val + k.val) % 16
    rw [toInt_toNat_ofNat_small _ (Nat.mod_lt _ (by decide))]
    omega

/-- The gathered array is the regrouped array with tile `k` of group `s` replaced by tile `(s + k) mod 16`: the fill
    mask is all ones, so the select reads the gather everywhere. -/
theorem taken_apply (x : FVec F S16x512x64x64 .f32) (b s cc i j k : Fin 16) :
    taken x (ix6 b s cc i j k) = tilesLast x (ix6 b s cc i j ⟨(s.val + k.val) % 16, Nat.mod_lt _ (by decide)⟩) := by
  unfold taken
  rw [inRange_eq]
  refine (select_apply _ _ _ _).trans ?_
  show Scalar.select 1#1 _ _ = _
  rw [select_one]
  exact gather_apply (tilesLast x) b s cc i j k

/-! ## The axes put back -/

/-- The shifted half at (b, c, h, w) is the gathered array at group c / 16, channel c % 16, row h % 16, column w % 16,
    tile 4 (h / 16) + w / 16. -/
theorem shiftedHalf_apply (x : FVec F S16x512x64x64 .f32) (b : Fin 16) (c : Fin 256) (h w : Fin 64) :
    shiftedHalf x (ix4 b c h w)
      = taken x (ix6 b ⟨c.val / 16, by omega⟩ ⟨c.val % 16, by omega⟩ ⟨h.val % 16, by omega⟩ ⟨w.val % 16, by omega⟩
          ⟨4 * (h.val / 16) + w.val / 16, by omega⟩) := by
  unfold shiftedHalf
  -- the outer reshape: (b, c, h, w) is position (b, c, h / 16, h % 16, w / 16, w % 16)
  refine (shapeCast_apply _ _ (ix4 b c h w)
    (ix6 b c (⟨h.val / 16, by omega⟩ : Fin 4) (⟨h.val % 16, by omega⟩ : Fin 16) (⟨w.val / 16, by omega⟩ : Fin 4)
      (⟨w.val % 16, by omega⟩ : Fin 16))
    (by rw [Shape.rowMajor_val_six, Shape.rowMajor_val_four]
        show ((((b.val * 256 + c.val) * 4 + h.val / 16) * 16 + h.val % 16) * 4 + w.val / 16) * 16 + w.val % 16
          = ((b.val * 256 + c.val) * 64 + h.val) * 64 + w.val
        omega)).trans ?_
  -- the transpose [0, 1, 4, 2, 5, 3]: result axis n carries source axis perm[n]
  refine (transpose_apply _ _ _ _
    (ix6 b c (⟨h.val % 16, by omega⟩ : Fin 16) (⟨w.val % 16, by omega⟩ : Fin 16) (⟨h.val / 16, by omega⟩ : Fin 4)
      (⟨w.val / 16, by omega⟩ : Fin 4))
    (fun a => match a with
      | ⟨0, _⟩ => rfl | ⟨1, _⟩ => rfl | ⟨2, _⟩ => rfl | ⟨3, _⟩ => rfl | ⟨4, _⟩ => rfl | ⟨5, _⟩ => rfl)).trans ?_
  -- the inner reshape: the channel splits into (group, channel in group), the two tile axes merge
  exact shapeCast_apply _ _ _ _
    (by rw [Shape.rowMajor_val_six, Shape.rowMajor_val_six]
        show ((((b.val * 16 + c.val / 16) * 16 + c.val % 16) * 16 + h.val % 16) * 16 + w.val % 16) * 16
            + (4 * (h.val / 16) + w.val / 16)
          = ((((b.val * 256 + c.val) * 16 + h.val % 16) * 16 + w.val % 16) * 4 + h.val / 16) * 4 + w.val / 16
        omega)

/-! ## The two halves joined -/

/-- THE REFERENCE'S RESULT IS THE TILE SHUFFLE. -/
theorem result_eq (x : FVec F S16x512x64x64 .f32) : result x = Cert.Shuffle.shuffled x := by
  funext idx
  obtain ⟨b, c, h, w, rfl⟩ : ∃ b c h w, idx = ix4 b c h w := ⟨idx 0, idx 1, idx 2, idx 3, eq_ix4 idx⟩
  unfold Cert.Shuffle.shuffled
  show result x (ix4 b c h w) = if c.val < 256 then x (ix4 b c h w)
    else x (ix4 b c ⟨Cert.Shuffle.srcRow c.val h.val w.val, Cert.Shuffle.srcRow_lt _ _ _⟩
      ⟨Cert.Shuffle.srcCol c.val h.val w.val, Cert.Shuffle.srcCol_lt _ _ _⟩)
  unfold result
  by_cases hc : c.val < 256
  · -- a kept channel: the first piece, the argument itself
    rw [if_pos hc]
    refine (concatenate_pair_apply_left 1 (keepHalf x) (shiftedHalf x) _ (ix4 b c h w) rfl (ix4 b (⟨c.val, hc⟩ : Fin 256) h w)
      (fun a => match a with | ⟨0, _⟩ => rfl | ⟨1, _⟩ => rfl | ⟨2, _⟩ => rfl | ⟨3, _⟩ => rfl)).trans ?_
    exact keepHalf_apply x b ⟨c.val, hc⟩ h w
  · -- a shifted channel: the second piece at channel c − 256, then the chain of reads
    rw [if_neg hc]
    refine (concatenate_pair_apply_right 1 (keepHalf x) (shiftedHalf x) _ (ix4 b c h w) rfl rfl (ix4 b (⟨c.val - 256, by omega⟩ : Fin 256) h w)
      (fun a ha => by
        match a with
        | ⟨0, _⟩ => rfl
        | ⟨1, _⟩ => exact absurd rfl ha
        | ⟨2, _⟩ => rfl
        | ⟨3, _⟩ => rfl)
      (by show (c.val - 256) + 256 = c.val; omega)).trans ?_
    rw [shiftedHalf_apply, taken_apply, tilesLast_apply]
    refine congrArg x (funext fun a => Fin.ext ?_)
    match a with
    | ⟨0, _⟩ => rfl
    | ⟨1, _⟩ =>
      show 256 + (16 * ((c.val - 256) / 16) + (c.val - 256) % 16) = c.val
      omega
    | ⟨2, _⟩ =>
      show 16 * ((((c.val - 256) / 16 + (4 * (h.val / 16) + w.val / 16)) % 16) / 4) + h.val % 16
        = Cert.Shuffle.srcRow c.val h.val w.val
      unfold Cert.Shuffle.srcRow Cert.Shuffle.srcTile
      omega
    | ⟨3, _⟩ =>
      show 16 * ((((c.val - 256) / 16 + (4 * (h.val / 16) + w.val / 16)) % 16) % 4) + w.val % 16
        = Cert.Shuffle.srcCol c.val h.val w.val
      unfold Cert.Shuffle.srcCol Cert.Shuffle.srcTile
      omega

end Cert.ReferenceIdeal.RefValue

end
-- ==== Proof.lean ====
/-
  The certificate: a Pallas kernel that copies channels 0..255 of a [16, 512, 64, 64] array and, in each of the sixteen
  groups of sixteen channels 256..511, cyclically shifts the 4×4 grid of 16×16 tiles of every image by the group's number,
  against the jnp reference that does the same with reshapes, transposes and `take_along_axis` over the index table
  `(group + tile) mod 16`. No float arithmetic occurs on either side: both results are the one permutation
  `Cert.Shuffle.shuffled` of the argument (Proof/Spec.lean), the kernel's by reading its run block by block
  (Proof/KernelBlock.lean, Proof/KernelArray.lean), the reference's by reading its host operations index by index
  (Proof/RefTerm.lean, Proof/RefRun.lean, Proof/RefTable.lean, Proof/RefRead.lean). The precondition is never opened.
-/
import proofs.«168481_j16930761081418_1_alg».proof.Defs
import proofs.«168481_j16930761081418_1_alg».proof.Proof.Gen.Kernel
import proofs.«168481_j16930761081418_1_alg».proof.Proof.Gen.Kernel.Frame
import proofs.«168481_j16930761081418_1_alg».proof.Proof.Gen.KernelIdeal
import proofs.«168481_j16930761081418_1_alg».proof.Proof.Gen.KernelIdeal.Frame
import proofs.«168481_j16930761081418_1_alg».proof.Proof.Gen.ReferenceIdeal
import proofs.«168481_j16930761081418_1_alg».proof.Proof.Gen.Pre_finite_inputs
import proofs.«168481_j16930761081418_1_alg».proof.Proof.KernelArray
import proofs.«168481_j16930761081418_1_alg».proof.Proof.RefRun
import proofs.«168481_j16930761081418_1_alg».proof.Proof.RefRead
import Idealize.ShloMosaic.Adequacy
import Idealize.ShloMosaic.Init

noncomputable section

namespace Cert.Proof

open Idealize.ShloMosaic Idealize.SL.Sem

/-- The word-level kernel runs and keeps its argument: its frame, whole. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a host program: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs end with the tile shuffle of the (agreeing) arguments. -/
theorem algebraic : Cert.algebraic_KernelIdeal_ReferenceIdeal := by
  intro m ρ m' ρ' _ hagree
  refine ⟨fun c => Cert.Shuffle.shuffled (m ((c.tc : Thread Cert.KernelIdeal.nD Cert.KernelIdeal.τ).loc Cert.KernelIdeal.main_arg0)),
    Cert.KernelIdeal.KValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
